-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v78)) (v1 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_v80) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x150000 : Shape := ⟨2, ![2, 150000]⟩
abbrev S512x512 : Shape := ⟨2, ![512, 512]⟩
abbrev S512 : Shape := ⟨1, ![512]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg14 : FVec F S512 .f32) (main_arg15 : FVec F S512x512 .f32) (main_arg16 : FVec F S512 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512 .f32 := Host.absf main_arg14
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512x512 .f32 := Host.absf main_arg15
  let main_cst_22 : FVec F S_ .f32 := constant S_ .f32 0x7F800000#32
  let main_v60 : FVec F S512x512 .f32 := broadcastInDim S512x512 ![] bcast_S_S512x512 main_cst_22
  let main_v61 : IVec S512x512 1 := cmpf .olt main_v59 main_v60
  let main_c_23 : IVec S_ 1 := constantI S_ 1 1#1
  let main_v62 : IVec S_ 1 := (fun x v => Host.reduce IntOp.andi x v reducesTo_S512x512_S_d0_1 h_S_) main_v61 main_c_23
  let main_v63 : IVec S_ 1 := andi main_v58 main_v62
  let main_v64 : FVec F S512 .f32 := Host.absf main_arg16
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_v63 main_v67

def fn_part2 {F : FTy → Type} [FloatOps F] (main_arg10 : FVec F S512 .f32) (main_arg11 : FVec F S512x512 .f32) (main_arg12 : FVec F S512 .f32) (main_arg13 : FVec F S512x512 .f32) (main_arg14 : FVec F S512 .f32) (main_arg15 : FVec F S512x512 .f32) (main_arg16 : FVec F S512 .f32) (main_v33 : IVec S_ 1) : IVec S_ 1 :=
  let main_v34 : FVec F S512 .f32 := Host.absf main_arg10
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg11
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg12
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x512 .f32 := Host.absf main_arg13
  let main_cst_18 : FVec F S_ .f32 := constant S_ .f32 0x7F800000#32
  let main_v50 : FVec F S512x512 .f32 := broadcastInDim S512x512 ![] bcast_S_S512x512 main_cst_18
  fn_part3 (F := F) main_arg14 main_arg15 main_arg16 main_v48 main_v49 main_v50

def fn_part1 {F : FTy → Type} [FloatOps F] (main_arg7 : FVec F S512x512 .f32) (main_arg8 : FVec F S512 .f32) (main_arg9 : FVec F S512x512 .f32) (main_arg10 : FVec F S512 .f32) (main_arg11 : FVec F S512x512 .f32) (main_arg12 : FVec F S512 .f32) (main_arg13 : FVec F S512x512 .f32) (main_arg14 : FVec F S512 .f32) (main_arg15 : FVec F S512x512 .f32) (main_arg16 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg7
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg8
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg9
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg10 main_arg11 main_arg12 main_arg13 main_arg14 main_arg15 main_arg16 main_v33

def fn {F : FTy → Type} [FloatOps F] (main_arg0 : FVec F S50000x512 .f32) (main_arg1 : FVec F S50000x512 .f32) (main_arg2 : IVec S2x150000 32) (main_arg3 : IVec S2x150000 32) (main_arg4 : IVec S2x150000 32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S512x512 .f32) (main_arg12 : FVec F S512 .f32) (main_arg13 : FVec F S512x512 .f32) (main_arg14 : FVec F S512 .f32) (main_arg15 : FVec F S512x512 .f32) (main_arg16 : FVec F S512 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S50000x512 .f32 := Host.absf main_arg1
  let main_cst_0 : FVec F S_ .f32 := constant S_ .f32 0x7F800000#32
  let main_v5 : FVec F S50000x512 .f32 := broadcastInDim S50000x512 ![] bcast_S_S50000x512 main_cst_0
  let main_v6 : IVec S50000x512 1 := cmpf .olt main_v4 main_v5
  let main_c_1 : IVec S_ 1 := constantI S_ 1 1#1
  let main_v7 : IVec S_ 1 := (fun x v => Host.reduce IntOp.andi x v reducesTo_S50000x512_S_d0_1 h_S_) main_v6 main_c_1
  let main_v8 : IVec S_ 1 := andi main_v3 main_v7
  let main_v9 : FVec F S512x512 .f32 := Host.absf main_arg5
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg6
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg7 main_arg8 main_arg9 main_arg10 main_arg11 main_arg12 main_arg13 main_arg14 main_arg15 main_arg16 main_v13 main_v16
-- ==== Kernel.lean ====
abbrev S50000x512 : Shape := ⟨2, ![50000, 512]⟩
abbrev S2x150000 : Shape := ⟨2, ![2, 150000]⟩
abbrev S512x512 : Shape := ⟨2, ![512, 512]⟩
abbrev S512 : Shape := ⟨1, ![512]⟩
abbrev S1x150000 : Shape := ⟨2, ![1, 150000]⟩
abbrev S150000 : Shape := ⟨1, ![150000]⟩
abbrev S_ : Shape := ⟨0, ![]⟩
abbrev S150000x1 : Shape := ⟨2, ![150000, 1]⟩
abbrev S150000x512 : Shape := ⟨2, ![150000, 512]⟩
abbrev S1x50000x512 : Shape := ⟨3, ![1, 50000, 512]⟩
abbrev S3x50000x512 : Shape := ⟨3, ![3, 50000, 512]⟩
abbrev S1x512x512 : Shape := ⟨3, ![1, 512, 512]⟩
abbrev S3x512x512 : Shape := ⟨3, ![3, 512, 512]⟩
abbrev S1x512 : Shape := ⟨2, ![1, 512]⟩
abbrev S3x512 : Shape := ⟨2, ![3, 512]⟩
abbrev S3x1x512 : Shape := ⟨3, ![3, 1, 512]⟩
abbrev S1x1000x512 : Shape := ⟨3, ![1, 1000, 512]⟩
abbrev S1x1x512 : Shape := ⟨3, ![1, 1, 512]⟩
abbrev S1000x512 : Shape := ⟨2, ![1000, 512]⟩

abbrev nBuf : Space → Nat
  | .hbm => 107
  | .vmem => 12
  | .smem => 0
  | _ => 0

abbrev bufTy : (tb : Table) → Fin (tcTables nBuf tb) → BufTy
  | .hbm, ⟨0, _⟩ => ⟨S50000x512, .f32⟩
  | .hbm, ⟨1, _⟩ => ⟨S50000x512, .f32⟩
  | .hbm, ⟨2, _⟩ => ⟨S2x150000, .i32⟩
  | .hbm, ⟨3, _⟩ => ⟨S2x150000, .i32⟩
  | .hbm, ⟨4, _⟩ => ⟨S2x150000, .i32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512, .f32⟩
  | .hbm, ⟨13, _⟩ => ⟨S512x512, .f32⟩
  | .hbm, ⟨14, _⟩ => ⟨S512, .f32⟩
  | .hbm, ⟨15, _⟩ => ⟨S512x512, .f32⟩
  | .hbm, ⟨16, _⟩ => ⟨S512, .f32⟩
  | .hbm, ⟨17, _⟩ => ⟨S1x150000, .i32⟩
  | .hbm, ⟨18, _⟩ => ⟨S150000, .i32⟩
  | .hbm, ⟨19, _⟩ => ⟨S_, .i32⟩
  | .hbm, ⟨20, _⟩ => ⟨S150000, .i32⟩
  | .hbm, ⟨21, _⟩ => ⟨S150000, .i1⟩
  | .hbm, ⟨22, _⟩ => ⟨S_, .i32⟩
  | .hbm, ⟨23, _⟩ => ⟨S150000, .i32⟩
  | .hbm, ⟨24, _⟩ => ⟨S150000, .i32⟩
  | .hbm, ⟨25, _⟩ => ⟨S150000, .i32⟩
  | .hbm, ⟨26, _⟩ => ⟨S150000x1, .i32⟩
  | .hbm, ⟨27, _⟩ => ⟨S150000x512, .f32⟩
  | .hbm, ⟨28, _⟩ => ⟨S1x150000, .i32⟩
  | .hbm, ⟨29, _⟩ => ⟨S150000, .i32⟩
  | .hbm, ⟨30, _⟩ => ⟨S_, .f32⟩
  | .hbm, ⟨31, _⟩ => ⟨S50000x512, .f32⟩
  | .hbm, ⟨32, _⟩ => ⟨S150000x1, .i32⟩
  | .hbm, ⟨33, _⟩ => ⟨S50000x512, .f32⟩
  | .hbm, ⟨34, _⟩ => ⟨S50000x512, .f32⟩
  | .hbm, ⟨35, _⟩ => ⟨S1x150000, .i32⟩
  | .hbm, ⟨36, _⟩ => ⟨S150000, .i32⟩
  | .hbm, ⟨37, _⟩ => ⟨S_, .i32⟩
  | .hbm, ⟨38, _⟩ => ⟨S150000, .i32⟩
  | .hbm, ⟨39, _⟩ => ⟨S150000, .i1⟩
  | .hbm, ⟨40, _⟩ => ⟨S_, .i32⟩
  | .hbm, ⟨41, _⟩ => ⟨S150000, .i32⟩
  | .hbm, ⟨42, _⟩ => ⟨S150000, .i32⟩
  | .hbm, ⟨43, _⟩ => ⟨S150000, .i32⟩
  | .hbm, ⟨44, _⟩ => ⟨S150000x1, .i32⟩
  | .hbm, ⟨45, _⟩ => ⟨S150000x512, .f32⟩
  | .hbm, ⟨46, _⟩ => ⟨S1x150000, .i32⟩
  | .hbm, ⟨47, _⟩ => ⟨S150000, .i32⟩
  | .hbm, ⟨48, _⟩ => ⟨S_, .f32⟩
  | .hbm, ⟨49, _⟩ => ⟨S50000x512, .f32⟩
  | .hbm, ⟨50, _⟩ => ⟨S150000x1, .i32⟩
  | .hbm, ⟨51, _⟩ => ⟨S50000x512, .f32⟩
  | .hbm, ⟨52, _⟩ => ⟨S50000x512, .f32⟩
  | .hbm, ⟨53, _⟩ => ⟨S1x150000, .i32⟩
  | .hbm, ⟨54, _⟩ => ⟨S150000, .i32⟩
  | .hbm, ⟨55, _⟩ => ⟨S_, .i32⟩
  | .hbm, ⟨56, _⟩ => ⟨S150000, .i32⟩
  | .hbm, ⟨57, _⟩ => ⟨S150000, .i1⟩
  | .hbm, ⟨58, _⟩ => ⟨S_, .i32⟩
  | .hbm, ⟨59, _⟩ => ⟨S150000, .i32⟩
  | .hbm, ⟨60, _⟩ => ⟨S150000, .i32⟩
  | .hbm, ⟨61, _⟩ => ⟨S150000, .i32⟩
  | .hbm, ⟨62, _⟩ => ⟨S150000x1, .i32⟩
  | .hbm, ⟨63, _⟩ => ⟨S150000x512, .f32⟩
  | .hbm, ⟨64, _⟩ => ⟨S1x150000, .i32⟩
  | .hbm, ⟨65, _⟩ => ⟨S150000, .i32⟩
  | .hbm, ⟨66, _⟩ => ⟨S_, .f32⟩
  | .hbm, ⟨67, _⟩ => ⟨S50000x512, .f32⟩
  | .hbm, ⟨68, _⟩ => ⟨S150000x1, .i32⟩
  | .hbm, ⟨69, _⟩ => ⟨S50000x512, .f32⟩
  | .hbm, ⟨70, _⟩ => ⟨S50000x512, .f32⟩
  | .hbm, ⟨71, _⟩ => ⟨S1x50000x512, .f32⟩
  | .hbm, ⟨72, _⟩ => ⟨S1x50000x512, .f32⟩
  | .hbm, ⟨73, _⟩ => ⟨S1x50000x512, .f32⟩
  | .hbm, ⟨74, _⟩ => ⟨S3x50000x512, .f32⟩
  | .hbm, ⟨75, _⟩ => ⟨S512x512, .bf16⟩
  | .hbm, ⟨76, _⟩ => ⟨S512x512, .bf16⟩
  | .hbm, ⟨77, _⟩ => ⟨S512x512, .bf16⟩
  | .hbm, ⟨78, _⟩ => ⟨S1x512x512, .bf16⟩
  | .hbm, ⟨79, _⟩ => ⟨S1x512x512, .bf16⟩
  | .hbm, ⟨80, _⟩ => ⟨S1x512x512, .bf16⟩
  | .hbm, ⟨81, _⟩ => ⟨S3x512x512, .bf16⟩
  | .hbm, ⟨82, _⟩ => ⟨S512x512, .bf16⟩
  | .hbm, ⟨83, _⟩ => ⟨S512x512, .bf16⟩
  | .hbm, ⟨84, _⟩ => ⟨S512x512, .bf16⟩
  | .hbm, ⟨85, _⟩ => ⟨S1x512x512, .bf16⟩
  | .hbm, ⟨86, _⟩ => ⟨S1x512x512, .bf16⟩
  | .hbm, ⟨87, _⟩ => ⟨S1x512x512, .bf16⟩
  | .hbm, ⟨88, _⟩ => ⟨S3x512x512, .bf16⟩
  | .hbm, ⟨89, _⟩ => ⟨S1x512, .f32⟩
  | .hbm, ⟨90, _⟩ => ⟨S1x512, .f32⟩
  | .hbm, ⟨91, _⟩ => ⟨S1x512, .f32⟩
  | .hbm, ⟨92, _⟩ => ⟨S3x512, .f32⟩
  | .hbm, ⟨93, _⟩ => ⟨S3x1x512, .f32⟩
  | .hbm, ⟨94, _⟩ => ⟨S1x512, .f32⟩
  | .hbm, ⟨95, _⟩ => ⟨S1x512, .f32⟩
  | .hbm, ⟨96, _⟩ => ⟨S1x512, .f32⟩
  | .hbm, ⟨97, _⟩ => ⟨S3x512, .f32⟩
  | .hbm, ⟨98, _⟩ => ⟨S3x1x512, .f32⟩
  | .hbm, ⟨99, _⟩ => ⟨S3x50000x512, .f32⟩
  | .hbm, ⟨100, _⟩ => ⟨S1x50000x512, .f32⟩
  | .hbm, ⟨101, _⟩ => ⟨S50000x512, .f32⟩
  | .hbm, ⟨102, _⟩ => ⟨S1x50000x512, .f32⟩
  | .hbm, ⟨103, _⟩ => ⟨S50000x512, .f32⟩
  | .hbm, ⟨104, _⟩ => ⟨S50000x512, .f32⟩
  | .hbm, ⟨105, _⟩ => ⟨S1x50000x512, .f32⟩
  | .hbm, ⟨106, _⟩ => ⟨S50000x512, .f32⟩
  | .local _ .vmem, ⟨0, _⟩ => ⟨S1x1000x512, .f32⟩
  | .local _ .vmem, ⟨1, _⟩ => ⟨S1x1000x512, .f32⟩
  | .local _ .vmem, ⟨2, _⟩ => ⟨S1x512x512, .bf16⟩
  | .local _ .vmem, ⟨3, _⟩ => ⟨S1x512x512, .bf16⟩
  | .local _ .vmem, ⟨4, _⟩ => ⟨S1x1x512, .f32⟩
  | .local _ .vmem, ⟨5, _⟩ => ⟨S1x1x512, .f32⟩
  | .local _ .vmem, ⟨6, _⟩ => ⟨S1x512x512, .bf16⟩
  | .local _ .vmem, ⟨7, _⟩ => ⟨S1x512x512, .bf16⟩
  | .local _ .vmem, ⟨8, _⟩ => ⟨S1x1x512, .f32⟩
  | .local _ .vmem, ⟨9, _⟩ => ⟨S1x1x512, .f32⟩
  | .local _ .vmem, ⟨10, _⟩ => ⟨S1x1000x512, .f32⟩
  | .local _ .vmem, ⟨11, _⟩ => ⟨S1x1000x512, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c_1 : Ref sig .tc := ⟨.hbm, 37, rfl⟩
abbrev main_v17 : Ref sig .tc := ⟨.hbm, 38, rfl⟩
abbrev main_v18 : Ref sig .tc := ⟨.hbm, 39, rfl⟩
abbrev main_c_2 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_3 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_4 : Ref sig .tc := ⟨.hbm, 55, rfl⟩
abbrev main_v32 : Ref sig .tc := ⟨.hbm, 56, rfl⟩
abbrev main_v33 : Ref sig .tc := ⟨.hbm, 57, rfl⟩
abbrev main_c_5 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_6 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![3, 50], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1000x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  slices_S2x150000_S1x150000_0_0 : S2x150000.Slices ![0, 0] S1x150000
  shapeCasts_S1x150000_S150000 : S1x150000.ShapeCasts S150000
  bcast_S_S150000 : S_.BroadcastsInDim S150000 (![] : Fin 0 → Fin S150000.rank)
  bcast_S150000_S150000x1_0 : S150000.BroadcastsInDim S150000x1 (![0] : Fin 1 → Fin S150000x1.rank)
  slices_S2x150000_S1x150000_1_0 : S2x150000.Slices ![1, 0] S1x150000
  bcast_S_S50000x512 : S_.BroadcastsInDim S50000x512 (![] : Fin 0 → Fin S50000x512.rank)
  bcast_S50000x512_S1x50000x512_1_2 : S50000x512.BroadcastsInDim S1x50000x512 (![1, 2] : Fin 2 → Fin S1x50000x512.rank)
  concatenates_S1x50000x512_S1x50000x512_S1x50000x512_S3x50000x512_d0 : Shape.Concatenates [S1x50000x512, S1x50000x512, S1x50000x512] S3x50000x512 0
  bitsLt_bf16_f32 : FTy.bits .bf16 < FTy.bits .f32
  bcast_S512x512_S1x512x512_1_2 : S512x512.BroadcastsInDim S1x512x512 (![1, 2] : Fin 2 → Fin S1x512x512.rank)
  concatenates_S1x512x512_S1x512x512_S1x512x512_S3x512x512_d0 : Shape.Concatenates [S1x512x512, S1x512x512, S1x512x512] S3x512x512 0
  bcast_S512_S1x512_1 : S512.BroadcastsInDim S1x512 (![1] : Fin 1 → Fin S1x512.rank)
  concatenates_S1x512_S1x512_S1x512_S3x512_d0 : Shape.Concatenates [S1x512, S1x512, S1x512] S3x512 0
  shapeCasts_S3x512_S3x1x512 : S3x512.ShapeCasts S3x1x512
  inb_S1x1000x512_S1x1000x512_0_0_0 : ∀ a, (![0, 0, 0] : Fin 3 → Nat) a + S1x1000x512.size a ≤ S1x1000x512.size a
  h_S1x1000x512 : 0 < S1x1000x512.numel
  shapeCasts_S1x1000x512_S1000x512 : S1x1000x512.ShapeCasts S1000x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S1000x512 : S1x512.Broadcasts S1000x512
  shapeCasts_S1000x512_S1x1000x512 : S1000x512.ShapeCasts S1x1000x512
  slices_S3x50000x512_S1x50000x512_0_0_0 : S3x50000x512.Slices ![0, 0, 0] S1x50000x512
  shapeCasts_S1x50000x512_S50000x512 : S1x50000x512.ShapeCasts S50000x512
  slices_S3x50000x512_S1x50000x512_1_0_0 : S3x50000x512.Slices ![1, 0, 0] S1x50000x512
  slices_S3x50000x512_S1x50000x512_2_0_0 : S3x50000x512.Slices ![2, 0, 0] S1x50000x512
  gather_S50000x512_S150000x1_S150000x512_1_0_n_n_0_1_1512_wf : GatherDims.WF S50000x512 S150000x1 S150000x512 [1] [0] [] [0] [] 1 ![1, 512]
  scatter_S50000x512_S150000x1_S150000x512_1_0_0_1_wf : ScatterDims.WF S50000x512 S150000x1 S150000x512 [1] [0] [0] 1
  dot_S1000x512_S512x512_S1000x512_1_0_0_1_n_n_wf : DotDims.WF S1000x512 S512x512 S1000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1000x512.size a ≤ S3x50000x512.size a
  hwx0_0 : ∀ i : grid0.Coords, EltTy.bits .f32 = 32 ∨ (Rect.block (s := S3x50000x512) S1x1000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S3x512x512.size a
  hwx0_1 : ∀ i : grid0.Coords, EltTy.bits .bf16 = 32 ∨ (Rect.block (s := S3x512x512) S1x512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S3x1x512.size a
  hwx0_2 : ∀ i : grid0.Coords, EltTy.bits .f32 = 32 ∨ (Rect.block (s := S3x1x512) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S3x512x512.size a
  hwx0_3 : ∀ i : grid0.Coords, EltTy.bits .bf16 = 32 ∨ (Rect.block (s := S3x512x512) S1x512x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512.size a ≤ S3x1x512.size a
  hwx0_4 : ∀ i : grid0.Coords, EltTy.bits .f32 = 32 ∨ (Rect.block (s := S3x1x512) S1x1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1000x512.size a ≤ S3x50000x512.size a
  hwx0_5 : ∀ i : grid0.Coords, EltTy.bits .f32 = 32 ∨ (Rect.block (s := S3x50000x512) S1x1000x512.size (cc0_transform_5 i) (hinb0_5 i)).WholeWords (EltTy.packing .f32)

variable [Facts₀]

def gather_S50000x512_S150000x1_S150000x512_1_0_n_n_0_1_1512 : GatherDims S50000x512 S150000x1 S150000x512 where
  offsetDims := [1]
  collapsedSliceDims := [0]
  operandBatchingDims := []
  startIndicesBatchingDims := []
  startIndexMap := [0]
  indexVectorDim := 1
  sliceSizes := ![1, 512]
  wf := gather_S50000x512_S150000x1_S150000x512_1_0_n_n_0_1_1512_wf
def scatter_S50000x512_S150000x1_S150000x512_1_0_0_1 : ScatterDims S50000x512 S150000x1 S150000x512 where
  updateWindowDims := [1]
  insertedWindowDims := [0]
  scatterDimsToOperandDims := [0]
  indexVectorDim := 1
  wf := scatter_S50000x512_S150000x1_S150000x512_1_0_0_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf

abbrev win0_0 : Pipeline.Window sig grid0 :=
  Pipeline.Window.ofSpec (Memref.whole main_v48) S1x1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v55) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v67) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v62) S1x512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v72) S1x1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v73) S1x1000x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x512 : Shape := ⟨2, ![50000, 512]⟩
abbrev S2x150000 : Shape := ⟨2, ![2, 150000]⟩
abbrev S512x512 : Shape := ⟨2, ![512, 512]⟩
abbrev S512 : Shape := ⟨1, ![512]⟩
abbrev S1x150000 : Shape := ⟨2, ![1, 150000]⟩
abbrev S150000 : Shape := ⟨1, ![150000]⟩
abbrev S_ : Shape := ⟨0, ![]⟩
abbrev S150000x1 : Shape := ⟨2, ![150000, 1]⟩
abbrev S150000x512 : Shape := ⟨2, ![150000, 512]⟩
abbrev S1x512 : Shape := ⟨2, ![1, 512]⟩

abbrev nBuf : Space → Nat
  | .hbm => 105
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S50000x512, .f32⟩
  | .hbm, ⟨2, _⟩ => ⟨S2x150000, .i32⟩
  | .hbm, ⟨3, _⟩ => ⟨S2x150000, .i32⟩
  | .hbm, ⟨4, _⟩ => ⟨S2x150000, .i32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512, .f32⟩
  | .hbm, ⟨13, _⟩ => ⟨S512x512, .f32⟩
  | .hbm, ⟨14, _⟩ => ⟨S512, .f32⟩
  | .hbm, ⟨15, _⟩ => ⟨S512x512, .f32⟩
  | .hbm, ⟨16, _⟩ => ⟨S512, .f32⟩
  | .hbm, ⟨17, _⟩ => ⟨S1x150000, .i32⟩
  | .hbm, ⟨18, _⟩ => ⟨S150000, .i32⟩
  | .hbm, ⟨19, _⟩ => ⟨S_, .i32⟩
  | .hbm, ⟨20, _⟩ => ⟨S150000, .i32⟩
  | .hbm, ⟨21, _⟩ => ⟨S150000, .i1⟩
  | .hbm, ⟨22, _⟩ => ⟨S_, .i32⟩
  | .hbm, ⟨23, _⟩ => ⟨S150000, .i32⟩
  | .hbm, ⟨24, _⟩ => ⟨S150000, .i32⟩
  | .hbm, ⟨25, _⟩ => ⟨S150000, .i32⟩
  | .hbm, ⟨26, _⟩ => ⟨S150000x1, .i32⟩
  | .hbm, ⟨27, _⟩ => ⟨S150000x512, .f32⟩
  | .hbm, ⟨28, _⟩ => ⟨S1x150000, .i32⟩
  | .hbm, ⟨29, _⟩ => ⟨S150000, .i32⟩
  | .hbm, ⟨30, _⟩ => ⟨S_, .f32⟩
  | .hbm, ⟨31, _⟩ => ⟨S50000x512, .f32⟩
  | .hbm, ⟨32, _⟩ => ⟨S150000x1, .i32⟩
  | .hbm, ⟨33, _⟩ => ⟨S50000x512, .f32⟩
  | .hbm, ⟨34, _⟩ => ⟨S50000x512, .f32⟩
  | .hbm, ⟨35, _⟩ => ⟨S50000x512, .f32⟩
  | .hbm, ⟨36, _⟩ => ⟨S1x512, .f32⟩
  | .hbm, ⟨37, _⟩ => ⟨S50000x512, .f32⟩
  | .hbm, ⟨38, _⟩ => ⟨S50000x512, .f32⟩
  | .hbm, ⟨39, _⟩ => ⟨S_, .f32⟩
  | .hbm, ⟨40, _⟩ => ⟨S50000x512, .f32⟩
  | .hbm, ⟨41, _⟩ => ⟨S50000x512, .f32⟩
  | .hbm, ⟨42, _⟩ => ⟨S50000x512, .f32⟩
  | .hbm, ⟨43, _⟩ => ⟨S1x512, .f32⟩
  | .hbm, ⟨44, _⟩ => ⟨S50000x512, .f32⟩
  | .hbm, ⟨45, _⟩ => ⟨S50000x512, .f32⟩
  | .hbm, ⟨46, _⟩ => ⟨S1x150000, .i32⟩
  | .hbm, ⟨47, _⟩ => ⟨S150000, .i32⟩
  | .hbm, ⟨48, _⟩ => ⟨S_, .i32⟩
  | .hbm, ⟨49, _⟩ => ⟨S150000, .i32⟩
  | .hbm, ⟨50, _⟩ => ⟨S150000, .i1⟩
  | .hbm, ⟨51, _⟩ => ⟨S_, .i32⟩
  | .hbm, ⟨52, _⟩ => ⟨S150000, .i32⟩
  | .hbm, ⟨53, _⟩ => ⟨S150000, .i32⟩
  | .hbm, ⟨54, _⟩ => ⟨S150000, .i32⟩
  | .hbm, ⟨55, _⟩ => ⟨S150000x1, .i32⟩
  | .hbm, ⟨56, _⟩ => ⟨S150000x512, .f32⟩
  | .hbm, ⟨57, _⟩ => ⟨S1x150000, .i32⟩
  | .hbm, ⟨58, _⟩ => ⟨S150000, .i32⟩
  | .hbm, ⟨59, _⟩ => ⟨S_, .f32⟩
  | .hbm, ⟨60, _⟩ => ⟨S50000x512, .f32⟩
  | .hbm, ⟨61, _⟩ => ⟨S150000x1, .i32⟩
  | .hbm, ⟨62, _⟩ => ⟨S50000x512, .f32⟩
  | .hbm, ⟨63, _⟩ => ⟨S50000x512, .f32⟩
  | .hbm, ⟨64, _⟩ => ⟨S50000x512, .f32⟩
  | .hbm, ⟨65, _⟩ => ⟨S1x512, .f32⟩
  | .hbm, ⟨66, _⟩ => ⟨S50000x512, .f32⟩
  | .hbm, ⟨67, _⟩ => ⟨S50000x512, .f32⟩
  | .hbm, ⟨68, _⟩ => ⟨S_, .f32⟩
  | .hbm, ⟨69, _⟩ => ⟨S50000x512, .f32⟩
  | .hbm, ⟨70, _⟩ => ⟨S50000x512, .f32⟩
  | .hbm, ⟨71, _⟩ => ⟨S50000x512, .f32⟩
  | .hbm, ⟨72, _⟩ => ⟨S1x512, .f32⟩
  | .hbm, ⟨73, _⟩ => ⟨S50000x512, .f32⟩
  | .hbm, ⟨74, _⟩ => ⟨S50000x512, .f32⟩
  | .hbm, ⟨75, _⟩ => ⟨S50000x512, .f32⟩
  | .hbm, ⟨76, _⟩ => ⟨S1x150000, .i32⟩
  | .hbm, ⟨77, _⟩ => ⟨S150000, .i32⟩
  | .hbm, ⟨78, _⟩ => ⟨S_, .i32⟩
  | .hbm, ⟨79, _⟩ => ⟨S150000, .i32⟩
  | .hbm, ⟨80, _⟩ => ⟨S150000, .i1⟩
  | .hbm, ⟨81, _⟩ => ⟨S_, .i32⟩
  | .hbm, ⟨82, _⟩ => ⟨S150000, .i32⟩
  | .hbm, ⟨83, _⟩ => ⟨S150000, .i32⟩
  | .hbm, ⟨84, _⟩ => ⟨S150000, .i32⟩
  | .hbm, ⟨85, _⟩ => ⟨S150000x1, .i32⟩
  | .hbm, ⟨86, _⟩ => ⟨S150000x512, .f32⟩
  | .hbm, ⟨87, _⟩ => ⟨S1x150000, .i32⟩
  | .hbm, ⟨88, _⟩ => ⟨S150000, .i32⟩
  | .hbm, ⟨89, _⟩ => ⟨S_, .f32⟩
  | .hbm, ⟨90, _⟩ => ⟨S50000x512, .f32⟩
  | .hbm, ⟨91, _⟩ => ⟨S150000x1, .i32⟩
  | .hbm, ⟨92, _⟩ => ⟨S50000x512, .f32⟩
  | .hbm, ⟨93, _⟩ => ⟨S50000x512, .f32⟩
  | .hbm, ⟨94, _⟩ => ⟨S50000x512, .f32⟩
  | .hbm, ⟨95, _⟩ => ⟨S1x512, .f32⟩
  | .hbm, ⟨96, _⟩ => ⟨S50000x512, .f32⟩
  | .hbm, ⟨97, _⟩ => ⟨S50000x512, .f32⟩
  | .hbm, ⟨98, _⟩ => ⟨S_, .f32⟩
  | .hbm, ⟨99, _⟩ => ⟨S50000x512, .f32⟩
  | .hbm, ⟨100, _⟩ => ⟨S50000x512, .f32⟩
  | .hbm, ⟨101, _⟩ => ⟨S50000x512, .f32⟩
  | .hbm, ⟨102, _⟩ => ⟨S1x512, .f32⟩
  | .hbm, ⟨103, _⟩ => ⟨S50000x512, .f32⟩
  | .hbm, ⟨104, _⟩ => ⟨S50000x512, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call0_cst : Ref sig .tc := ⟨.hbm, 39, rfl⟩
abbrev main_call0_v0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_1 : Ref sig .tc := ⟨.hbm, 48, rfl⟩
abbrev main_v26 : Ref sig .tc := ⟨.hbm, 49, rfl⟩
abbrev main_v27 : Ref sig .tc := ⟨.hbm, 50, rfl⟩
abbrev main_c_2 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_3 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_call1_cst : Ref sig .tc := ⟨.hbm, 68, rfl⟩
abbrev main_call1_v0 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_c_4 : Ref sig .tc := ⟨.hbm, 78, rfl⟩
abbrev main_v51 : Ref sig .tc := ⟨.hbm, 79, rfl⟩
abbrev main_v52 : Ref sig .tc := ⟨.hbm, 80, rfl⟩
abbrev main_c_5 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_6 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_call2_cst : Ref sig .tc := ⟨.hbm, 98, rfl⟩
abbrev main_call2_v0 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩

abbrev nD : Nat := 1
abbrev τ : Topo := Topo.v7x

variable {F : FTy → Type} [FloatOps F]

class Facts₀ : Prop where
  slices_S2x150000_S1x150000_0_0 : S2x150000.Slices ![0, 0] S1x150000
  shapeCasts_S1x150000_S150000 : S1x150000.ShapeCasts S150000
  bcast_S_S150000 : S_.BroadcastsInDim S150000 (![] : Fin 0 → Fin S150000.rank)
  bcast_S150000_S150000x1_0 : S150000.BroadcastsInDim S150000x1 (![0] : Fin 1 → Fin S150000x1.rank)
  slices_S2x150000_S1x150000_1_0 : S2x150000.Slices ![1, 0] S1x150000
  bcast_S_S50000x512 : S_.BroadcastsInDim S50000x512 (![] : Fin 0 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  gather_S50000x512_S150000x1_S150000x512_1_0_n_n_0_1_1512_wf : GatherDims.WF S50000x512 S150000x1 S150000x512 [1] [0] [] [0] [] 1 ![1, 512]
  scatter_S50000x512_S150000x1_S150000x512_1_0_0_1_wf : ScatterDims.WF S50000x512 S150000x1 S150000x512 [1] [0] [0] 1
  dot_S50000x512_S512x512_S50000x512_1_0_0_1_n_n_wf : DotDims.WF S50000x512 S512x512 S50000x512 [1] [0] [0] [1] [] []

variable [Facts₀]

def gather_S50000x512_S150000x1_S150000x512_1_0_n_n_0_1_1512 : GatherDims S50000x512 S150000x1 S150000x512 where
  offsetDims := [1]
  collapsedSliceDims := [0]
  operandBatchingDims := []
  startIndicesBatchingDims := []
  startIndexMap := [0]
  indexVectorDim := 1
  sliceSizes := ![1, 512]
  wf := gather_S50000x512_S150000x1_S150000x512_1_0_n_n_0_1_1512_wf
def scatter_S50000x512_S150000x1_S150000x512_1_0_0_1 : ScatterDims S50000x512 S150000x1 S150000x512 where
  updateWindowDims := [1]
  insertedWindowDims := [0]
  scatterDimsToOperandDims := [0]
  indexVectorDim := 1
  wf := scatter_S50000x512_S150000x1_S150000x512_1_0_0_1_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf

class Facts : Prop extends Facts₀ where

variable [Facts]
-- ==== Proof.FrameK.lean ====
/-
  The idealized kernel program runs to its end, faults nowhere and leaves its seventeen argument arrays as launched.

  @main is eighty-two host operations (three segment sums x_dst + Σ_{edges into a node} x_src, stacked along a new
  leading axis; the six weight matrices narrowed and stacked; the six bias vectors stacked), ONE pipelined region on
  the grid 3 × 50, and seven host operations after it (the stacked result cut into its three slabs, the first two
  added). The region's body reads five input blocks — a 1000 × 512 slab of stacked rows, and for the edge type of the
  point two 512 × 512 weight matrices and two bias rows — and stores ONE block covering its whole output buffer:
  out = max(h · W₁ + b₁, 0) · W₂ + b₂. Nothing is kept between grid points and the kernel owns no semaphore, so the
  region invariant is the plain one: the scoped rest and the generator register, untouched.

  What is proved here: the body's triple (the output buffer ends at the one stored block, the inputs as found),
  the proof data (each input's staging buffer holds its block of the array as the region finds it; the output's the
  stored block of those), the body obligation at a generic point, the run around the region, and the frame: no host
  operation before or after the region writes an argument array, and no window stages one.
-/
import proofs.«169015_j81552839016473_1_alg».proof.Proof.Gen.Kernel.Launch
import proofs.«169015_j81552839016473_1_alg».proof.Proof.Gen.Kernel.Skeleton
import proofs.«169015_j81552839016473_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the eighty-two host operations. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the seven later operations, at the contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch unscoped TensorCore buffers only: the pipeline's arrays and the buffers
    that bypass the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- A buffer that none of the eighty-two operations writes is found by the region as launched. -/
theorem V_of_unwritten (c : Dev nD) (b : Ref sig .tc)
    (h : (hostOps0 : List (HloOp τ sig (Elt F))).Forall fun op => Proc.devRef .tc b ∉ op.writes) :
    V m c b = m ((c : Thread nD τ).loc b) :=
  StableHlo.after_of_forall_not_mem (b := Proc.devRef .tc b) _ _ (List.forall_iff_forall_mem.mp (by
    simpa only [List.flatten_cons, List.flatten_nil, List.append_nil] using h))

/-- A buffer that is no array of the pipeline and that none of the seven later operations writes ends as the region
    found it. -/
theorem W_of_unwritten (dats : (p : Fin _) → (c : Dev nD) → Dat τ (Elt F) Unit ℕ (UR sig nD τ) ℕ (cfgs p) c) (c : Dev nD)
    (b : Ref sig .tc) (hb : ∀ w, Pipeline.arrRef spec0 w ≠ b)
    (h : (hostOps1 : List (HloOp τ sig (Elt F))).Forall fun op => Proc.devRef .tc b ∉ op.writes) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
      simpa only [List.flatten_cons, List.flatten_nil, List.append_nil] using h)),
    Pipeline.withArrays_of_ne _ c (V0 m c) _ b hb]

/-- Deciding, operation by operation, that a stretch of host operations leaves a named buffer alone: each writes one
    buffer, its own result, whose reference is another. -/
local macro "unwritten " ops:term : tactic =>
  `(tactic| (simp only [$ops:term, List.Forall, StableHlo.nullary_writes, StableHlo.unary_writes, StableHlo.binary_writes,
      StableHlo.ternary_writes, StableHlo.quaternary_writes, StableHlo.reshape_writes, StableHlo.binaryIndexed_writes,
      StableHlo.nary_writes, Finset.mem_singleton] <;>
    (repeat' apply And.intro) <;> exact StableHlo.devRef_ne_of_ne (by decide)))

theorem V_main_arg0 (c : Dev nD) : V m c main_arg0 = m ((c : Thread nD τ).loc main_arg0) :=
  V_of_unwritten m c main_arg0 (by unwritten hostOps0)
theorem V_main_arg1 (c : Dev nD) : V m c main_arg1 = m ((c : Thread nD τ).loc main_arg1) :=
  V_of_unwritten m c main_arg1 (by unwritten hostOps0)
theorem V_main_arg2 (c : Dev nD) : V m c main_arg2 = m ((c : Thread nD τ).loc main_arg2) :=
  V_of_unwritten m c main_arg2 (by unwritten hostOps0)
theorem V_main_arg3 (c : Dev nD) : V m c main_arg3 = m ((c : Thread nD τ).loc main_arg3) :=
  V_of_unwritten m c main_arg3 (by unwritten hostOps0)
theorem V_main_arg4 (c : Dev nD) : V m c main_arg4 = m ((c : Thread nD τ).loc main_arg4) :=
  V_of_unwritten m c main_arg4 (by unwritten hostOps0)
theorem V_main_arg5 (c : Dev nD) : V m c main_arg5 = m ((c : Thread nD τ).loc main_arg5) :=
  V_of_unwritten m c main_arg5 (by unwritten hostOps0)
theorem V_main_arg6 (c : Dev nD) : V m c main_arg6 = m ((c : Thread nD τ).loc main_arg6) :=
  V_of_unwritten m c main_arg6 (by unwritten hostOps0)
theorem V_main_arg7 (c : Dev nD) : V m c main_arg7 = m ((c : Thread nD τ).loc main_arg7) :=
  V_of_unwritten m c main_arg7 (by unwritten hostOps0)
theorem V_main_arg8 (c : Dev nD) : V m c main_arg8 = m ((c : Thread nD τ).loc main_arg8) :=
  V_of_unwritten m c main_arg8 (by unwritten hostOps0)
theorem V_main_arg9 (c : Dev nD) : V m c main_arg9 = m ((c : Thread nD τ).loc main_arg9) :=
  V_of_unwritten m c main_arg9 (by unwritten hostOps0)
theorem V_main_arg10 (c : Dev nD) : V m c main_arg10 = m ((c : Thread nD τ).loc main_arg10) :=
  V_of_unwritten m c main_arg10 (by unwritten hostOps0)
theorem V_main_arg11 (c : Dev nD) : V m c main_arg11 = m ((c : Thread nD τ).loc main_arg11) :=
  V_of_unwritten m c main_arg11 (by unwritten hostOps0)
theorem V_main_arg12 (c : Dev nD) : V m c main_arg12 = m ((c : Thread nD τ).loc main_arg12) :=
  V_of_unwritten m c main_arg12 (by unwritten hostOps0)
theorem V_main_arg13 (c : Dev nD) : V m c main_arg13 = m ((c : Thread nD τ).loc main_arg13) :=
  V_of_unwritten m c main_arg13 (by unwritten hostOps0)
theorem V_main_arg14 (c : Dev nD) : V m c main_arg14 = m ((c : Thread nD τ).loc main_arg14) :=
  V_of_unwritten m c main_arg14 (by unwritten hostOps0)
theorem V_main_arg15 (c : Dev nD) : V m c main_arg15 = m ((c : Thread nD τ).loc main_arg15) :=
  V_of_unwritten m c main_arg15 (by unwritten hostOps0)
theorem V_main_arg16 (c : Dev nD) : V m c main_arg16 = m ((c : Thread nD τ).loc main_arg16) :=
  V_of_unwritten m c main_arg16 (by unwritten hostOps0)

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) :=
  (W_of_unwritten m dats c main_arg0 (by exact (by decide : ∀ w, Pipeline.arrRef spec0 w ≠ main_arg0)) (by unwritten hostOps1)).trans
    (V_main_arg0 m c)
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  (W_of_unwritten m dats c main_arg1 (by exact (by decide : ∀ w, Pipeline.arrRef spec0 w ≠ main_arg1)) (by unwritten hostOps1)).trans
    (V_main_arg1 m c)
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) :=
  (W_of_unwritten m dats c main_arg2 (by exact (by decide : ∀ w, Pipeline.arrRef spec0 w ≠ main_arg2)) (by unwritten hostOps1)).trans
    (V_main_arg2 m c)
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) :=
  (W_of_unwritten m dats c main_arg3 (by exact (by decide : ∀ w, Pipeline.arrRef spec0 w ≠ main_arg3)) (by unwritten hostOps1)).trans
    (V_main_arg3 m c)
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) :=
  (W_of_unwritten m dats c main_arg4 (by exact (by decide : ∀ w, Pipeline.arrRef spec0 w ≠ main_arg4)) (by unwritten hostOps1)).trans
    (V_main_arg4 m c)
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) :=
  (W_of_unwritten m dats c main_arg5 (by exact (by decide : ∀ w, Pipeline.arrRef spec0 w ≠ main_arg5)) (by unwritten hostOps1)).trans
    (V_main_arg5 m c)
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) :=
  (W_of_unwritten m dats c main_arg6 (by exact (by decide : ∀ w, Pipeline.arrRef spec0 w ≠ main_arg6)) (by unwritten hostOps1)).trans
    (V_main_arg6 m c)
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) :=
  (W_of_unwritten m dats c main_arg7 (by exact (by decide : ∀ w, Pipeline.arrRef spec0 w ≠ main_arg7)) (by unwritten hostOps1)).trans
    (V_main_arg7 m c)
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) :=
  (W_of_unwritten m dats c main_arg8 (by exact (by decide : ∀ w, Pipeline.arrRef spec0 w ≠ main_arg8)) (by unwritten hostOps1)).trans
    (V_main_arg8 m c)
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) :=
  (W_of_unwritten m dats c main_arg9 (by exact (by decide : ∀ w, Pipeline.arrRef spec0 w ≠ main_arg9)) (by unwritten hostOps1)).trans
    (V_main_arg9 m c)
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) :=
  (W_of_unwritten m dats c main_arg10 (by exact (by decide : ∀ w, Pipeline.arrRef spec0 w ≠ main_arg10)) (by unwritten hostOps1)).trans
    (V_main_arg10 m c)
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) :=
  (W_of_unwritten m dats c main_arg11 (by exact (by decide : ∀ w, Pipeline.arrRef spec0 w ≠ main_arg11)) (by unwritten hostOps1)).trans
    (V_main_arg11 m c)
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) :=
  (W_of_unwritten m dats c main_arg12 (by exact (by decide : ∀ w, Pipeline.arrRef spec0 w ≠ main_arg12)) (by unwritten hostOps1)).trans
    (V_main_arg12 m c)
theorem W_main_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) :=
  (W_of_unwritten m dats c main_arg13 (by exact (by decide : ∀ w, Pipeline.arrRef spec0 w ≠ main_arg13)) (by unwritten hostOps1)).trans
    (V_main_arg13 m c)
theorem W_main_arg14 (dats : (p : Fin _) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) :=
  (W_of_unwritten m dats c main_arg14 (by exact (by decide : ∀ w, Pipeline.arrRef spec0 w ≠ main_arg14)) (by unwritten hostOps1)).trans
    (V_main_arg14 m c)
theorem W_main_arg15 (dats : (p : Fin _) → (c : Dev nD) → Dat τ (Elt F) Unit ℕ (UR sig nD τ) ℕ (cfgs p) c) (c : Dev nD) :
    Pipeline.afterTail₀ cfgs dats 0 (V0 m) [hostOps1] c main_arg15 = m ((c : Thread nD τ).loc main_arg15) :=
  (W_of_unwritten m dats c main_arg15 (by exact (by decide : ∀ w, Pipeline.arrRef spec0 w ≠ main_arg15)) (by unwritten hostOps1)).trans
    (V_main_arg15 m c)
theorem W_main_arg16 (dats : (p : Fin _) → (c : Dev nD) → Dat τ (Elt F) Unit ℕ (UR sig nD τ) ℕ (cfgs p) c) (c : Dev nD) :
    Pipeline.afterTail₀ cfgs dats 0 (V0 m) [hostOps1] c main_arg16 = m ((c : Thread nD τ).loc main_arg16) :=
  (W_of_unwritten m dats c main_arg16 (by exact (by decide : ∀ w, Pipeline.arrRef spec0 w ≠ main_arg16)) (by unwritten hostOps1)).trans
    (V_main_arg16 m c)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The frame claim's post from the frame run's -/

/-- The argument arrays bypass the region (none is staged by a window) and no host operation writes one: a run to
    the library's post, read at the seventeen arguments, is the frame claim's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).2 main_arg9 (Pipeline.mem_restRefs_of main_arg9 (by decide) (by decide))).trans (W_main_arg9 m dats c),
    ((h c).2 main_arg10 (Pipeline.mem_restRefs_of main_arg10 (by decide) (by decide))).trans (W_main_arg10 m dats c),
    ((h c).2 main_arg11 (Pipeline.mem_restRefs_of main_arg11 (by decide) (by decide))).trans (W_main_arg11 m dats c),
    ((h c).2 main_arg12 (Pipeline.mem_restRefs_of main_arg12 (by decide) (by decide))).trans (W_main_arg12 m dats c),
    ((h c).2 main_arg13 (Pipeline.mem_restRefs_of main_arg13 (by decide) (by decide))).trans (W_main_arg13 m dats c),
    ((h c).2 main_arg14 (Pipeline.mem_restRefs_of main_arg14 (by decide) (by decide))).trans (W_main_arg14 m dats c),
    ((h c).2 main_arg15 (Pipeline.mem_restRefs_of main_arg15 (by decide) (by decide))).trans (W_main_arg15 m dats c),
    ((h c).2 main_arg16 (Pipeline.mem_restRefs_of main_arg16 (by decide) (by decide))).trans (W_main_arg16 m dats c)⟩) h

/-! ## The body's accesses -/

abbrev rX : Rect S1x1000x512 := Rect.unit (s := S1x1000x512) ![0, 0, 0] S1x1000x512.size inb_S1x1000x512_S1x1000x512_0_0_0
abbrev rW : Rect S1x512x512 := Rect.unit (s := S1x512x512) ![0, 0, 0] S1x512x512.size inb_S1x512x512_S1x512x512_0_0_0
abbrev rB : Rect S1x1x512 := Rect.unit (s := S1x1x512) ![0, 0, 0] S1x1x512.size inb_S1x1x512_S1x1x512_0_0_0

/-! ## What the body leaves in the output window's buffer -/

/-- The output's staging buffer after the body, from the five input blocks: its one store, a piece covering the
    buffer, whose value is the body's arithmetic of what the five loads read. -/
def outBlk (x0 : Vec F S1x1000x512 .f32) (x1 : Vec F S1x512x512 .bf16) (x2 : Vec F S1x1x512 .f32) (x3 : Vec F S1x512x512 .bf16) (x4 : Vec F S1x1x512 .f32) :
    Vec F S1x1000x512 .f32 :=
  View.canon [⟨rX, k0_pay1 (View.ld x0 rX) (View.ld x1 rW) (View.ld x2 rB) (View.ld x3 rW) (View.ld x4 rB)⟩]

/-- The one stored rectangle is the whole buffer. -/
theorem outCover (p0 : Vec F S1x1000x512 .f32) (y : S1x1000x512.Idx) :
    ∃ pc ∈ ([⟨rX, p0⟩] : List (View.Piece (Elt F) S1x1000x512 .f32)), y ∈ pc.1.set :=
  View.cover_of_tiled [⟨rX, p0⟩] S1x1000x512.size (by rfl) y

/-! ## The body's triple -/

set_option maxHeartbeats 1000000 in
/-- The kernel body on whole staging memrefs, the inputs' at contents `x0 … x4` and the output's at anything, runs to
    the continuation holding the inputs' as they were and the output's at `outBlk` of the inputs'. The load of the
    output buffer before the store reads whatever is there and is not used. -/
theorem sound_kernel (c : Dev nD) (E : Set ℕ) (i : grid0.Coords)
    (arg2 : Memref sig .tc .vmem S1x1000x512 .f32) (harg2 : arg2.IsWhole) (arg3 : Memref sig .tc .vmem S1x512x512 .bf16) (harg3 : arg3.IsWhole)
    (arg4 : Memref sig .tc .vmem S1x1x512 .f32) (harg4 : arg4.IsWhole) (arg5 : Memref sig .tc .vmem S1x512x512 .bf16) (harg5 : arg5.IsWhole)
    (arg6 : Memref sig .tc .vmem S1x1x512 .f32) (harg6 : arg6.IsWhole) (arg7 : Memref sig .tc .vmem S1x1000x512 .f32) (harg7 : arg7.IsWhole)
    (x0 : Vec F S1x1000x512 .f32) (x1 : Vec F S1x512x512 .bf16) (x2 : Vec F S1x1x512 .f32) (x3 : Vec F S1x512x512 .bf16) (x4 : Vec F S1x1x512 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (outBlk x0 x1 x2 x3 x4)) -∗ K ⟨⟩))
      ⊢ wp frame (wpE (defs₀ (F := F)) Variants.none c none) E (cc0__mlp_kernel i arg2 harg2 arg3 harg3 arg4 harg4 arg5 harg5 arg6 harg6 arg7 harg7) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (outCover _)

/-! ## The pipeline's proof data -/

/-- The proof data of the pipeline on core `c`: the arrays as the region finds them; after the body at point `t` each
    input's buffer at its block and the output's at `outBlk` of the five input blocks; the plain invariant; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (iblk m c 0 t) (iblk m c 1 t) (iblk m c 2 t) (iblk m c 3 t) (iblk m c 4 t)
  Φ _ := Pipeline.ΦA spec0 c
  q _ := fullShare
  owed _ := 0

/-- The proof data's arrays are the region-entry contents (projected, never unfolded). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = outBlk (iblk m c 0 t) (iblk m c 1 t) (iblk m c 2 t) (iblk m c 3 t) (iblk m c 4 t) := by dsimp only [dats]

/-- An input window's current staging buffer holds its block at every point, fetched there or not: unfetched, the
    block index has not moved, and the body left the block in place; the windows are uncut and never idle. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at what the library computes from the proof data and every other unscoped buffer as
    the seven operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its argument arrays end unchanged, at any reading of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (run_main m ρ)

end Cert.Kernel.Frm

end
-- ==== Proof.FrameKI.lean ====
/-
  The idealized kernel program runs to its end, faults nowhere and leaves its seventeen argument arrays as launched.

  @main is eighty-two host operations (three segment sums x_dst + Σ_{edges into a node} x_src, stacked along a new
  leading axis; the six weight matrices narrowed and stacked; the six bias vectors stacked), ONE pipelined region on
  the grid 3 × 50, and seven host operations after it (the stacked result cut into its three slabs, the first two
  added). The region's body reads five input blocks — a 1000 × 512 slab of stacked rows, and for the edge type of the
  point two 512 × 512 weight matrices and two bias rows — and stores ONE block covering its whole output buffer:
  out = max(h · W₁ + b₁, 0) · W₂ + b₂. Nothing is kept between grid points and the kernel owns no semaphore, so the
  region invariant is the plain one: the scoped rest and the generator register, untouched.

  What is proved here: the body's triple (the output buffer ends at the one stored block, the inputs as found),
  the proof data (each input's staging buffer holds its block of the array as the region finds it; the output's the
  stored block of those), the body obligation at a generic point, the run around the region, and the frame: no host
  operation before or after the region writes an argument array, and no window stages one.
-/
import proofs.«169015_j81552839016473_1_alg».proof.Proof.Gen.KernelIdeal.Launch
import proofs.«169015_j81552839016473_1_alg».proof.Proof.Gen.KernelIdeal.Skeleton
import proofs.«169015_j81552839016473_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the eighty-two host operations. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the seven later operations, at the contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch unscoped TensorCore buffers only: the pipeline's arrays and the buffers
    that bypass the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- A buffer that none of the eighty-two operations writes is found by the region as launched. -/
theorem V_of_unwritten (c : Dev nD) (b : Ref sig .tc)
    (h : (hostOps0 : List (HloOp τ sig (Elt F))).Forall fun op => Proc.devRef .tc b ∉ op.writes) :
    V m c b = m ((c : Thread nD τ).loc b) :=
  StableHlo.after_of_forall_not_mem (b := Proc.devRef .tc b) _ _ (List.forall_iff_forall_mem.mp (by
    simpa only [List.flatten_cons, List.flatten_nil, List.append_nil] using h))

/-- A buffer that is no array of the pipeline and that none of the seven later operations writes ends as the region
    found it. -/
theorem W_of_unwritten (dats : (p : Fin _) → (c : Dev nD) → Dat τ (Elt F) Unit ℕ (UR sig nD τ) ℕ (cfgs p) c) (c : Dev nD)
    (b : Ref sig .tc) (hb : ∀ w, Pipeline.arrRef spec0 w ≠ b)
    (h : (hostOps1 : List (HloOp τ sig (Elt F))).Forall fun op => Proc.devRef .tc b ∉ op.writes) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
      simpa only [List.flatten_cons, List.flatten_nil, List.append_nil] using h)),
    Pipeline.withArrays_of_ne _ c (V0 m c) _ b hb]

/-- Deciding, operation by operation, that a stretch of host operations leaves a named buffer alone: each writes one
    buffer, its own result, whose reference is another. -/
local macro "unwritten " ops:term : tactic =>
  `(tactic| (simp only [$ops:term, List.Forall, StableHlo.nullary_writes, StableHlo.unary_writes, StableHlo.binary_writes,
      StableHlo.ternary_writes, StableHlo.quaternary_writes, StableHlo.reshape_writes, StableHlo.binaryIndexed_writes,
      StableHlo.nary_writes, Finset.mem_singleton] <;>
    (repeat' apply And.intro) <;> exact StableHlo.devRef_ne_of_ne (by decide)))

theorem V_main_arg0 (c : Dev nD) : V m c main_arg0 = m ((c : Thread nD τ).loc main_arg0) :=
  V_of_unwritten m c main_arg0 (by unwritten hostOps0)
theorem V_main_arg1 (c : Dev nD) : V m c main_arg1 = m ((c : Thread nD τ).loc main_arg1) :=
  V_of_unwritten m c main_arg1 (by unwritten hostOps0)
theorem V_main_arg2 (c : Dev nD) : V m c main_arg2 = m ((c : Thread nD τ).loc main_arg2) :=
  V_of_unwritten m c main_arg2 (by unwritten hostOps0)
theorem V_main_arg3 (c : Dev nD) : V m c main_arg3 = m ((c : Thread nD τ).loc main_arg3) :=
  V_of_unwritten m c main_arg3 (by unwritten hostOps0)
theorem V_main_arg4 (c : Dev nD) : V m c main_arg4 = m ((c : Thread nD τ).loc main_arg4) :=
  V_of_unwritten m c main_arg4 (by unwritten hostOps0)
theorem V_main_arg5 (c : Dev nD) : V m c main_arg5 = m ((c : Thread nD τ).loc main_arg5) :=
  V_of_unwritten m c main_arg5 (by unwritten hostOps0)
theorem V_main_arg6 (c : Dev nD) : V m c main_arg6 = m ((c : Thread nD τ).loc main_arg6) :=
  V_of_unwritten m c main_arg6 (by unwritten hostOps0)
theorem V_main_arg7 (c : Dev nD) : V m c main_arg7 = m ((c : Thread nD τ).loc main_arg7) :=
  V_of_unwritten m c main_arg7 (by unwritten hostOps0)
theorem V_main_arg8 (c : Dev nD) : V m c main_arg8 = m ((c : Thread nD τ).loc main_arg8) :=
  V_of_unwritten m c main_arg8 (by unwritten hostOps0)
theorem V_main_arg9 (c : Dev nD) : V m c main_arg9 = m ((c : Thread nD τ).loc main_arg9) :=
  V_of_unwritten m c main_arg9 (by unwritten hostOps0)
theorem V_main_arg10 (c : Dev nD) : V m c main_arg10 = m ((c : Thread nD τ).loc main_arg10) :=
  V_of_unwritten m c main_arg10 (by unwritten hostOps0)
theorem V_main_arg11 (c : Dev nD) : V m c main_arg11 = m ((c : Thread nD τ).loc main_arg11) :=
  V_of_unwritten m c main_arg11 (by unwritten hostOps0)
theorem V_main_arg12 (c : Dev nD) : V m c main_arg12 = m ((c : Thread nD τ).loc main_arg12) :=
  V_of_unwritten m c main_arg12 (by unwritten hostOps0)
theorem V_main_arg13 (c : Dev nD) : V m c main_arg13 = m ((c : Thread nD τ).loc main_arg13) :=
  V_of_unwritten m c main_arg13 (by unwritten hostOps0)
theorem V_main_arg14 (c : Dev nD) : V m c main_arg14 = m ((c : Thread nD τ).loc main_arg14) :=
  V_of_unwritten m c main_arg14 (by unwritten hostOps0)
theorem V_main_arg15 (c : Dev nD) : V m c main_arg15 = m ((c : Thread nD τ).loc main_arg15) :=
  V_of_unwritten m c main_arg15 (by unwritten hostOps0)
theorem V_main_arg16 (c : Dev nD) : V m c main_arg16 = m ((c : Thread nD τ).loc main_arg16) :=
  V_of_unwritten m c main_arg16 (by unwritten hostOps0)

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) :=
  (W_of_unwritten m dats c main_arg0 (by exact (by decide : ∀ w, Pipeline.arrRef spec0 w ≠ main_arg0)) (by unwritten hostOps1)).trans
    (V_main_arg0 m c)
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  (W_of_unwritten m dats c main_arg1 (by exact (by decide : ∀ w, Pipeline.arrRef spec0 w ≠ main_arg1)) (by unwritten hostOps1)).trans
    (V_main_arg1 m c)
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) :=
  (W_of_unwritten m dats c main_arg2 (by exact (by decide : ∀ w, Pipeline.arrRef spec0 w ≠ main_arg2)) (by unwritten hostOps1)).trans
    (V_main_arg2 m c)
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) :=
  (W_of_unwritten m dats c main_arg3 (by exact (by decide : ∀ w, Pipeline.arrRef spec0 w ≠ main_arg3)) (by unwritten hostOps1)).trans
    (V_main_arg3 m c)
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) :=
  (W_of_unwritten m dats c main_arg4 (by exact (by decide : ∀ w, Pipeline.arrRef spec0 w ≠ main_arg4)) (by unwritten hostOps1)).trans
    (V_main_arg4 m c)
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) :=
  (W_of_unwritten m dats c main_arg5 (by exact (by decide : ∀ w, Pipeline.arrRef spec0 w ≠ main_arg5)) (by unwritten hostOps1)).trans
    (V_main_arg5 m c)
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) :=
  (W_of_unwritten m dats c main_arg6 (by exact (by decide : ∀ w, Pipeline.arrRef spec0 w ≠ main_arg6)) (by unwritten hostOps1)).trans
    (V_main_arg6 m c)
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) :=
  (W_of_unwritten m dats c main_arg7 (by exact (by decide : ∀ w, Pipeline.arrRef spec0 w ≠ main_arg7)) (by unwritten hostOps1)).trans
    (V_main_arg7 m c)
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) :=
  (W_of_unwritten m dats c main_arg8 (by exact (by decide : ∀ w, Pipeline.arrRef spec0 w ≠ main_arg8)) (by unwritten hostOps1)).trans
    (V_main_arg8 m c)
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) :=
  (W_of_unwritten m dats c main_arg9 (by exact (by decide : ∀ w, Pipeline.arrRef spec0 w ≠ main_arg9)) (by unwritten hostOps1)).trans
    (V_main_arg9 m c)
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) :=
  (W_of_unwritten m dats c main_arg10 (by exact (by decide : ∀ w, Pipeline.arrRef spec0 w ≠ main_arg10)) (by unwritten hostOps1)).trans
    (V_main_arg10 m c)
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) :=
  (W_of_unwritten m dats c main_arg11 (by exact (by decide : ∀ w, Pipeline.arrRef spec0 w ≠ main_arg11)) (by unwritten hostOps1)).trans
    (V_main_arg11 m c)
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) :=
  (W_of_unwritten m dats c main_arg12 (by exact (by decide : ∀ w, Pipeline.arrRef spec0 w ≠ main_arg12)) (by unwritten hostOps1)).trans
    (V_main_arg12 m c)
theorem W_main_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) :=
  (W_of_unwritten m dats c main_arg13 (by exact (by decide : ∀ w, Pipeline.arrRef spec0 w ≠ main_arg13)) (by unwritten hostOps1)).trans
    (V_main_arg13 m c)
theorem W_main_arg14 (dats : (p : Fin _) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) :=
  (W_of_unwritten m dats c main_arg14 (by exact (by decide : ∀ w, Pipeline.arrRef spec0 w ≠ main_arg14)) (by unwritten hostOps1)).trans
    (V_main_arg14 m c)
theorem W_main_arg15 (dats : (p : Fin _) → (c : Dev nD) → Dat τ (Elt F) Unit ℕ (UR sig nD τ) ℕ (cfgs p) c) (c : Dev nD) :
    Pipeline.afterTail₀ cfgs dats 0 (V0 m) [hostOps1] c main_arg15 = m ((c : Thread nD τ).loc main_arg15) :=
  (W_of_unwritten m dats c main_arg15 (by exact (by decide : ∀ w, Pipeline.arrRef spec0 w ≠ main_arg15)) (by unwritten hostOps1)).trans
    (V_main_arg15 m c)
theorem W_main_arg16 (dats : (p : Fin _) → (c : Dev nD) → Dat τ (Elt F) Unit ℕ (UR sig nD τ) ℕ (cfgs p) c) (c : Dev nD) :
    Pipeline.afterTail₀ cfgs dats 0 (V0 m) [hostOps1] c main_arg16 = m ((c : Thread nD τ).loc main_arg16) :=
  (W_of_unwritten m dats c main_arg16 (by exact (by decide : ∀ w, Pipeline.arrRef spec0 w ≠ main_arg16)) (by unwritten hostOps1)).trans
    (V_main_arg16 m c)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The frame claim's post from the frame run's -/

/-- The argument arrays bypass the region (none is staged by a window) and no host operation writes one: a run to
    the library's post, read at the seventeen arguments, is the frame claim's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).2 main_arg9 (Pipeline.mem_restRefs_of main_arg9 (by decide) (by decide))).trans (W_main_arg9 m dats c),
    ((h c).2 main_arg10 (Pipeline.mem_restRefs_of main_arg10 (by decide) (by decide))).trans (W_main_arg10 m dats c),
    ((h c).2 main_arg11 (Pipeline.mem_restRefs_of main_arg11 (by decide) (by decide))).trans (W_main_arg11 m dats c),
    ((h c).2 main_arg12 (Pipeline.mem_restRefs_of main_arg12 (by decide) (by decide))).trans (W_main_arg12 m dats c),
    ((h c).2 main_arg13 (Pipeline.mem_restRefs_of main_arg13 (by decide) (by decide))).trans (W_main_arg13 m dats c),
    ((h c).2 main_arg14 (Pipeline.mem_restRefs_of main_arg14 (by decide) (by decide))).trans (W_main_arg14 m dats c),
    ((h c).2 main_arg15 (Pipeline.mem_restRefs_of main_arg15 (by decide) (by decide))).trans (W_main_arg15 m dats c),
    ((h c).2 main_arg16 (Pipeline.mem_restRefs_of main_arg16 (by decide) (by decide))).trans (W_main_arg16 m dats c)⟩) h

/-! ## The body's accesses -/

abbrev rX : Rect S1x1000x512 := Rect.unit (s := S1x1000x512) ![0, 0, 0] S1x1000x512.size inb_S1x1000x512_S1x1000x512_0_0_0
abbrev rW : Rect S1x512x512 := Rect.unit (s := S1x512x512) ![0, 0, 0] S1x512x512.size inb_S1x512x512_S1x512x512_0_0_0
abbrev rB : Rect S1x1x512 := Rect.unit (s := S1x1x512) ![0, 0, 0] S1x1x512.size inb_S1x1x512_S1x1x512_0_0_0

/-! ## What the body leaves in the output window's buffer -/

/-- The output's staging buffer after the body, from the five input blocks: its one store, a piece covering the
    buffer, whose value is the body's arithmetic of what the five loads read. -/
def outBlk (x0 : Vec F S1x1000x512 .f32) (x1 : Vec F S1x512x512 .bf16) (x2 : Vec F S1x1x512 .f32) (x3 : Vec F S1x512x512 .bf16) (x4 : Vec F S1x1x512 .f32) :
    Vec F S1x1000x512 .f32 :=
  View.canon [⟨rX, k0_pay1 (View.ld x0 rX) (View.ld x1 rW) (View.ld x2 rB) (View.ld x3 rW) (View.ld x4 rB)⟩]

/-- The one stored rectangle is the whole buffer. -/
theorem outCover (p0 : Vec F S1x1000x512 .f32) (y : S1x1000x512.Idx) :
    ∃ pc ∈ ([⟨rX, p0⟩] : List (View.Piece (Elt F) S1x1000x512 .f32)), y ∈ pc.1.set :=
  View.cover_of_tiled [⟨rX, p0⟩] S1x1000x512.size (by rfl) y

/-! ## The body's triple -/

set_option maxHeartbeats 1000000 in
/-- The kernel body on whole staging memrefs, the inputs' at contents `x0 … x4` and the output's at anything, runs to
    the continuation holding the inputs' as they were and the output's at `outBlk` of the inputs'. The load of the
    output buffer before the store reads whatever is there and is not used. -/
theorem sound_kernel (c : Dev nD) (E : Set ℕ) (i : grid0.Coords)
    (arg2 : Memref sig .tc .vmem S1x1000x512 .f32) (harg2 : arg2.IsWhole) (arg3 : Memref sig .tc .vmem S1x512x512 .bf16) (harg3 : arg3.IsWhole)
    (arg4 : Memref sig .tc .vmem S1x1x512 .f32) (harg4 : arg4.IsWhole) (arg5 : Memref sig .tc .vmem S1x512x512 .bf16) (harg5 : arg5.IsWhole)
    (arg6 : Memref sig .tc .vmem S1x1x512 .f32) (harg6 : arg6.IsWhole) (arg7 : Memref sig .tc .vmem S1x1000x512 .f32) (harg7 : arg7.IsWhole)
    (x0 : Vec F S1x1000x512 .f32) (x1 : Vec F S1x512x512 .bf16) (x2 : Vec F S1x1x512 .f32) (x3 : Vec F S1x512x512 .bf16) (x4 : Vec F S1x1x512 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (outBlk x0 x1 x2 x3 x4)) -∗ K ⟨⟩))
      ⊢ wp frame (wpE (defs₀ (F := F)) Variants.none c none) E (cc0__mlp_kernel i arg2 harg2 arg3 harg3 arg4 harg4 arg5 harg5 arg6 harg6 arg7 harg7) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (outCover _)

/-! ## The pipeline's proof data -/

/-- The proof data of the pipeline on core `c`: the arrays as the region finds them; after the body at point `t` each
    input's buffer at its block and the output's at `outBlk` of the five input blocks; the plain invariant; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (iblk m c 0 t) (iblk m c 1 t) (iblk m c 2 t) (iblk m c 3 t) (iblk m c 4 t)
  Φ _ := Pipeline.ΦA spec0 c
  q _ := fullShare
  owed _ := 0

/-- The proof data's arrays are the region-entry contents (projected, never unfolded). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = outBlk (iblk m c 0 t) (iblk m c 1 t) (iblk m c 2 t) (iblk m c 3 t) (iblk m c 4 t) := by dsimp only [dats]

/-- An input window's current staging buffer holds its block at every point, fetched there or not: unfetched, the
    block index has not moved, and the body left the block in place; the windows are uncut and never idle. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at what the library computes from the proof data and every other unscoped buffer as
    the seven operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its argument arrays end unchanged, at any reading of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (run_main m ρ)

end Cert.KernelIdeal.Frm

end
-- ==== Proof.PayKI.lean ====
/-
  The kernel body's arithmetic read at an index, on the extended reals.

  The body's one stored value is out = (max(x · W₁ + b₁, 0) · W₂ + b₂) of its five loaded blocks: x a 1000 × 512 slab of
  rows, W₁ and W₂ 512 × 512, b₁ and b₂ rows of 512, each carrying a leading unit axis that a shape cast drops. On the
  extended reals the two narrowings to bf16 are the identity and a matrix product into a zero accumulator is the plain
  sum over the contracted axis, so at row r and column c

      out(r, c) = Σ_k max(Σ_j x(r, j) · W₁(j, k) + b₁(k), 0) · W₂(k, c) + b₂(c).
-/
import proofs.«169015_j81552839016473_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen
open Idealize.ShloMosaic Idealize.ShloMosaic.ValueIdx

/-! ## The matrix unit's index maps: rows × contraction against contraction × columns -/

theorem lhs_dot_0 (i : S1000x512.Idx) (q : dot_S1000x512_S512x512_S1000x512_1_0_0_1_n_n.contr.Idx) :
    (dot_S1000x512_S512x512_S1000x512_1_0_0_1_n_n.lhsIdx i q 0).val = (i 0).val := by
  unfold DotDims.lhsIdx
  rw [dif_neg (show ¬(0 : Fin S1000x512.rank) ∈ dot_S1000x512_S512x512_S1000x512_1_0_0_1_n_n.lhsBatch by decide), dif_pos (show (0 : Fin S1000x512.rank) ∈ dot_S1000x512_S512x512_S1000x512_1_0_0_1_n_n.lhsNonContracting by decide)]
  rfl
theorem lhs_dot_1 (i : S1000x512.Idx) (q : dot_S1000x512_S512x512_S1000x512_1_0_0_1_n_n.contr.Idx) :
    (dot_S1000x512_S512x512_S1000x512_1_0_0_1_n_n.lhsIdx i q 1).val = (q ⟨0, by decide⟩).val :=
  dot_S1000x512_S512x512_S1000x512_1_0_0_1_n_n.lhsIdx_val_of_single rfl i q
theorem rhs_dot_0 (i : S1000x512.Idx) (q : dot_S1000x512_S512x512_S1000x512_1_0_0_1_n_n.contr.Idx) :
    (dot_S1000x512_S512x512_S1000x512_1_0_0_1_n_n.rhsIdx i q 0).val = (q ⟨0, by decide⟩).val :=
  dot_S1000x512_S512x512_S1000x512_1_0_0_1_n_n.rhsIdx_val_of_single rfl i q
theorem rhs_dot_1 (i : S1000x512.Idx) (q : dot_S1000x512_S512x512_S1000x512_1_0_0_1_n_n.contr.Idx) :
    (dot_S1000x512_S512x512_S1000x512_1_0_0_1_n_n.rhsIdx i q 1).val = (i 1).val := by
  unfold DotDims.rhsIdx
  rw [dif_neg (show ¬(1 : Fin S512x512.rank) ∈ dot_S1000x512_S512x512_S1000x512_1_0_0_1_n_n.rhsBatch by decide), dif_pos (show (1 : Fin S512x512.rank) ∈ dot_S1000x512_S512x512_S1000x512_1_0_0_1_n_n.rhsNonContracting by decide)]
  rfl

/-- A product into a zero accumulator, at row `r` and column `c`, is the sum over the contracted axis. -/
theorem matmul_zero_apply {φ₁ φ₂ : FTy} (a : FVec Ideal S1000x512 φ₁) (w : FVec Ideal S512x512 φ₂) (r : Fin 1000) (c : Fin 512) :
    matmul dot_S1000x512_S512x512_S1000x512_1_0_0_1_n_n none a w (constant S1000x512 .f32 0x00000000#32) (ix2 r c)
      = ∑ k : Fin 512, a (ix2 r k) * w (ix2 k c) := by
  simp only [matmul]
  rw [Ideal.matmul_constant_zero_apply, ← Equiv.sum_comp (ValueIdx.contrEquiv1 dot_S1000x512_S512x512_S1000x512_1_0_0_1_n_n 512 rfl rfl).symm]
  refine Finset.sum_congr rfl fun k _ => ?_
  have hk := ValueIdx.contrEquiv1_symm_val dot_S1000x512_S512x512_S1000x512_1_0_0_1_n_n 512 rfl rfl k
  have el : dot_S1000x512_S512x512_S1000x512_1_0_0_1_n_n.lhsIdx (ix2 r c) ((ValueIdx.contrEquiv1 dot_S1000x512_S512x512_S1000x512_1_0_0_1_n_n 512 rfl rfl).symm k) = ix2 r k := funext fun a => Fin.ext (by
    match a with
    | ⟨0, _⟩ => exact lhs_dot_0 _ _
    | ⟨1, _⟩ => exact (lhs_dot_1 _ _).trans hk)
  have er : dot_S1000x512_S512x512_S1000x512_1_0_0_1_n_n.rhsIdx (ix2 r c) ((ValueIdx.contrEquiv1 dot_S1000x512_S512x512_S1000x512_1_0_0_1_n_n 512 rfl rfl).symm k) = ix2 k c := funext fun a => Fin.ext (by
    match a with
    | ⟨0, _⟩ => exact (rhs_dot_0 _ _).trans hk
    | ⟨1, _⟩ => exact rhs_dot_1 _ _)
  rw [el, er]

/-- One dense layer of the body, a · W + b with W and b carrying a leading unit axis, at row `r` and column `c`. -/
theorem layer_apply (a : FVec Ideal S1000x512 .bf16) (w : Vec Ideal S1x512x512 .bf16) (b : Vec Ideal S1x1x512 .f32) (r : Fin 1000) (c : Fin 512) :
    addf (matmul dot_S1000x512_S512x512_S1000x512_1_0_0_1_n_n none a (shapeCast S512x512 w shapeCasts_S1x512x512_S512x512 : FVec Ideal S512x512 .bf16) (constant S1000x512 .f32 0x00000000#32))
        (broadcastTo S1000x512 (shapeCast S1x512 b shapeCasts_S1x1x512_S1x512 : FVec Ideal S1x512 .f32) broadcasts_S1x512_S1000x512) (ix2 r c)
      = (∑ k : Fin 512, a (ix2 r k) * w (ix3 (0 : Fin 1) k c)) + b (ix3 (0 : Fin 1) (0 : Fin 1) c) := by
  rw [addf_apply, matmul_zero_apply, broadcastTo_1b_ab_apply, shapeCast_1ab_ab_apply]
  refine congrArg₂ (· + ·) (Finset.sum_congr rfl fun k _ => ?_) rfl
  rw [shapeCast_1ab_ab_apply]

/-- The body's stored value at row `r` and column `c` (its leading unit coordinate `u` is 0). -/
theorem pay_apply (x0 : Vec Ideal S1x1000x512 .f32) (x1 : Vec Ideal S1x512x512 .bf16) (x2 : Vec Ideal S1x1x512 .f32)
    (x3 : Vec Ideal S1x512x512 .bf16) (x4 : Vec Ideal S1x1x512 .f32) (u : Fin 1) (r : Fin 1000) (c : Fin 512) :
    k0_pay1 (F := Ideal) x0 x1 x2 x3 x4 (ix3 u r c)
      = (∑ k : Fin 512, max ((∑ j : Fin 512, x0 (ix3 (0 : Fin 1) r j) * x1 (ix3 (0 : Fin 1) j k)) + x2 (ix3 (0 : Fin 1) (0 : Fin 1) k))
            (Ideal.ofBits .f32 0x00000000#32) * x3 (ix3 (0 : Fin 1) k c)) + x4 (ix3 (0 : Fin 1) (0 : Fin 1) c) := by
  unfold k0_pay1
  refine (shapeCast_ab_1ab_apply _ _ u r c).trans ?_
  refine (layer_apply _ x3 x4 r c).trans ?_
  refine congrArg₂ (· + ·) (Finset.sum_congr rfl fun k _ => ?_) rfl
  refine congrArg₂ (· * ·) ?_ rfl
  rw [truncf_apply, maximumf_apply, broadcast_apply]
  refine congrArg₂ max ?_ rfl
  refine (layer_apply _ x1 x2 r k).trans ?_
  refine congrArg₂ (· + ·) (Finset.sum_congr rfl fun j _ => ?_) rfl
  rw [truncf_apply, shapeCast_1ab_ab_apply]

end Cert.KernelIdeal.Val

end
-- ==== Proof.ArrKI.lean ====
/-
  What the region leaves in its result array, on the extended reals.

  Point t of the 3 × 50 grid is edge type e = t / 50 and row tile q = t mod 50: it reads rows 1000·q … 1000·q + 999 of
  slab e of the stacked rows, the whole of slab e of each weight stack and of each bias stack, and writes back rows
  1000·q … of slab e of the result. Its stored block is the stacked perceptron

      G(e, r, c) = Σ_k max(Σ_j X(e, r, j) · W₁(e, j, k) + B₁(e, 0, k), 0) · W₂(e, k, c) + B₂(e, 0, c)

  of the five arrays as the region finds them, read through the block; the 150 blocks tile the result array, so after
  the run the result array is G.
-/
import proofs.«169015_j81552839016473_1_alg».proof.Proof.FrameKI
import proofs.«169015_j81552839016473_1_alg».proof.Proof.PayKI

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The stacked perceptron: slab `e` of the rows through slab `e` of the weights and biases. -/
def Gst (X : S3x50000x512.Idx → EReal) (W1 : S3x512x512.Idx → EReal) (B1 : S3x1x512.Idx → EReal)
    (W2 : S3x512x512.Idx → EReal) (B2 : S3x1x512.Idx → EReal) : S3x50000x512.Idx → EReal :=
  fun i => (∑ k : Fin 512, max ((∑ j : Fin 512, X (ix3 (i 0) (i 1) j) * W1 (ix3 (i 0) j k)) + B1 (ix3 (i 0) (0 : Fin 1) k))
      (Ideal.ofBits .f32 0x00000000#32) * W2 (ix3 (i 0) k (i 2))) + B2 (ix3 (i 0) (0 : Fin 1) (i 2))

theorem hz3 : (![0, 0, 0] : Fin 3 → Nat) = fun _ => 0 := funext fun a => by fin_cases a <;> rfl

/-- The printed index maps over the grid: the leading block index of every window is the point's edge type, the row
    tile of the rows' and the result's windows is the point's, every other block index is zero. -/
theorem idx_facts : ∀ t : Fin cfg0.N,
    win0_0.index t (0 : Fin 3) = t.val / 50 ∧ win0_0.index t (1 : Fin 3) = t.val % 50 ∧ win0_0.index t (2 : Fin 3) = 0
    ∧ win0_1.index t (0 : Fin 3) = t.val / 50 ∧ win0_1.index t (1 : Fin 3) = 0 ∧ win0_1.index t (2 : Fin 3) = 0
    ∧ win0_2.index t (0 : Fin 3) = t.val / 50 ∧ win0_2.index t (1 : Fin 3) = 0 ∧ win0_2.index t (2 : Fin 3) = 0
    ∧ win0_3.index t (0 : Fin 3) = t.val / 50 ∧ win0_3.index t (1 : Fin 3) = 0 ∧ win0_3.index t (2 : Fin 3) = 0
    ∧ win0_4.index t (0 : Fin 3) = t.val / 50 ∧ win0_4.index t (1 : Fin 3) = 0 ∧ win0_4.index t (2 : Fin 3) = 0
    ∧ win0_5.index t (0 : Fin 3) = t.val / 50 ∧ win0_5.index t (1 : Fin 3) = t.val % 50 ∧ win0_5.index t (2 : Fin 3) = 0 :=
  (by decide +kernel : ∀ t : Fin grid0.N, _)

/-- Every (edge type, row tile) is some point's. -/
theorem idx_onto : ∀ (q0 : Fin 3) (q1 : Fin 50), ∃ t : Fin cfg0.N, win0_5.index t = ![q0.val, q1.val, 0] :=
  (by decide +kernel : ∀ (q0 : Fin 3) (q1 : Fin 50), ∃ t : Fin grid0.N, win0_5.index t = ![q0.val, q1.val, 0])

/-- The body's arithmetic of five blocks that are, index by index, the blocks of edge type `e` and row tile `q` of five
    stacked arrays is the stacked perceptron at the tile's rows. -/
theorem pay_of_blocks (X : S3x50000x512.Idx → EReal) (W1 : S3x512x512.Idx → EReal) (B1 : S3x1x512.Idx → EReal)
    (W2 : S3x512x512.Idx → EReal) (B2 : S3x1x512.Idx → EReal)
    (x0 : Vec Ideal S1x1000x512 .f32) (x1 : Vec Ideal S1x512x512 .bf16) (x2 : Vec Ideal S1x1x512 .f32)
    (x3 : Vec Ideal S1x512x512 .bf16) (x4 : Vec Ideal S1x1x512 .f32)
    (e : Fin 3) (R : Fin 1000 → Fin 50000)
    (h0 : ∀ (r : Fin 1000) (j : Fin 512), x0 (ix3 (0 : Fin 1) r j) = X (ix3 e (R r) j))
    (h1 : ∀ (j k : Fin 512), x1 (ix3 (0 : Fin 1) j k) = W1 (ix3 e j k))
    (h2 : ∀ (k : Fin 512), x2 (ix3 (0 : Fin 1) (0 : Fin 1) k) = B1 (ix3 e (0 : Fin 1) k))
    (h3 : ∀ (j k : Fin 512), x3 (ix3 (0 : Fin 1) j k) = W2 (ix3 e j k))
    (h4 : ∀ (k : Fin 512), x4 (ix3 (0 : Fin 1) (0 : Fin 1) k) = B2 (ix3 e (0 : Fin 1) k))
    (u : Fin 1) (r : Fin 1000) (c : Fin 512) :
    k0_pay1 (F := Ideal) x0 x1 x2 x3 x4 (ix3 u r c) = Gst X W1 B1 W2 B2 (ix3 e (R r) c) := by
  rw [pay_apply]
  simp only [h0, h1, h2, h3, h4]
  rfl

/-- Where the blocks sit: block `t` of the rows' window and of the result's is slab t / 50, rows 1000 · (t mod 50) …;
    of each weight and bias window it is the whole of slab t / 50. -/
theorem emb_0 (t : Fin cfg0.N) (y0 : Fin 1) (y1 : Fin 1000) (y2 : Fin 512) (e : Fin 3) (q : Fin 50000)
    (he : e.val = t.val / 50) (hq : q.val = t.val % 50 * 1000 + y1.val) :
    ((cfg0.win 0).blk t).view.emb (ix3 y0 y1 y2) = ix3 e q y2 := by
  obtain ⟨a0, a1, a2, -, -, -, -, -, -, -, -, -, -, -, -, -, -, -⟩ := idx_facts t
  have hy0 : y0.val = 0 := by omega
  funext a; apply Fin.ext
  match a with
  | ⟨0, _⟩ => show win0_0.index t (0 : Fin 3) * 1 + 1 * y0.val = e.val; omega
  | ⟨1, _⟩ => show win0_0.index t (1 : Fin 3) * 1000 + 1 * y1.val = q.val; omega
  | ⟨2, _⟩ => show win0_0.index t (2 : Fin 3) * 512 + 1 * y2.val = y2.val; omega

theorem emb_1 (t : Fin cfg0.N) (y0 : Fin 1) (y1 : Fin 512) (y2 : Fin 512) (e : Fin 3) (q : Fin 512)
    (he : e.val = t.val / 50) (hq : q.val = y1.val) :
    ((cfg0.win 1).blk t).view.emb (ix3 y0 y1 y2) = ix3 e q y2 := by
  obtain ⟨-, -, -, a0, a1, a2, -, -, -, -, -, -, -, -, -, -, -, -⟩ := idx_facts t
  have hy0 : y0.val = 0 := by omega
  funext a; apply Fin.ext
  match a with
  | ⟨0, _⟩ => show win0_1.index t (0 : Fin 3) * 1 + 1 * y0.val = e.val; omega
  | ⟨1, _⟩ => show win0_1.index t (1 : Fin 3) * 512 + 1 * y1.val = q.val; omega
  | ⟨2, _⟩ => show win0_1.index t (2 : Fin 3) * 512 + 1 * y2.val = y2.val; omega

theorem emb_2 (t : Fin cfg0.N) (y0 : Fin 1) (y1 : Fin 1) (y2 : Fin 512) (e : Fin 3) (q : Fin 1)
    (he : e.val = t.val / 50) (hq : q.val = y1.val) :
    ((cfg0.win 2).blk t).view.emb (ix3 y0 y1 y2) = ix3 e q y2 := by
  obtain ⟨-, -, -, -, -, -, a0, a1, a2, -, -, -, -, -, -, -, -, -⟩ := idx_facts t
  have hy0 : y0.val = 0 := by omega
  funext a; apply Fin.ext
  match a with
  | ⟨0, _⟩ => show win0_2.index t (0 : Fin 3) * 1 + 1 * y0.val = e.val; omega
  | ⟨1, _⟩ => show win0_2.index t (1 : Fin 3) * 1 + 1 * y1.val = q.val; omega
  | ⟨2, _⟩ => show win0_2.index t (2 : Fin 3) * 512 + 1 * y2.val = y2.val; omega

theorem emb_3 (t : Fin cfg0.N) (y0 : Fin 1) (y1 : Fin 512) (y2 : Fin 512) (e : Fin 3) (q : Fin 512)
    (he : e.val = t.val / 50) (hq : q.val = y1.val) :
    ((cfg0.win 3).blk t).view.emb (ix3 y0 y1 y2) = ix3 e q y2 := by
  obtain ⟨-, -, -, -, -, -, -, -, -, a0, a1, a2, -, -, -, -, -, -⟩ := idx_facts t
  have hy0 : y0.val = 0 := by omega
  funext a; apply Fin.ext
  match a with
  | ⟨0, _⟩ => show win0_3.index t (0 : Fin 3) * 1 + 1 * y0.val = e.val; omega
  | ⟨1, _⟩ => show win0_3.index t (1 : Fin 3) * 512 + 1 * y1.val = q.val; omega
  | ⟨2, _⟩ => show win0_3.index t (2 : Fin 3) * 512 + 1 * y2.val = y2.val; omega

theorem emb_4 (t : Fin cfg0.N) (y0 : Fin 1) (y1 : Fin 1) (y2 : Fin 512) (e : Fin 3) (q : Fin 1)
    (he : e.val = t.val / 50) (hq : q.val = y1.val) :
    ((cfg0.win 4).blk t).view.emb (ix3 y0 y1 y2) = ix3 e q y2 := by
  obtain ⟨-, -, -, -, -, -, -, -, -, -, -, -, a0, a1, a2, -, -, -⟩ := idx_facts t
  have hy0 : y0.val = 0 := by omega
  funext a; apply Fin.ext
  match a with
  | ⟨0, _⟩ => show win0_4.index t (0 : Fin 3) * 1 + 1 * y0.val = e.val; omega
  | ⟨1, _⟩ => show win0_4.index t (1 : Fin 3) * 1 + 1 * y1.val = q.val; omega
  | ⟨2, _⟩ => show win0_4.index t (2 : Fin 3) * 512 + 1 * y2.val = y2.val; omega

theorem emb_5 (t : Fin cfg0.N) (y0 : Fin 1) (y1 : Fin 1000) (y2 : Fin 512) (e : Fin 3) (q : Fin 50000)
    (he : e.val = t.val / 50) (hq : q.val = t.val % 50 * 1000 + y1.val) :
    ((cfg0.win 5).blk t).view.emb (ix3 y0 y1 y2) = ix3 e q y2 := by
  obtain ⟨-, -, -, -, -, -, -, -, -, -, -, -, -, -, -, a0, a1, a2⟩ := idx_facts t
  have hy0 : y0.val = 0 := by omega
  funext a; apply Fin.ext
  match a with
  | ⟨0, _⟩ => show win0_5.index t (0 : Fin 3) * 1 + 1 * y0.val = e.val; omega
  | ⟨1, _⟩ => show win0_5.index t (1 : Fin 3) * 1000 + 1 * y1.val = q.val; omega
  | ⟨2, _⟩ => show win0_5.index t (2 : Fin 3) * 512 + 1 * y2.val = y2.val; omega

set_option maxHeartbeats 1000000 in
/-- What point `t` writes back is block `t` of the stacked perceptron of the five arrays as the region finds them. -/
theorem flushed_eq (c : Dev nD) (t : Fin cfg0.N) :
    (dats m 0 c).flushed 5 t = ((cfg0.win 5).blk t).view.read (Elt Ideal)
      (Gst (V m c main_v48) (V m c main_v55) (V m c main_v67) (V m c main_v62) (V m c main_v72)) := by
  show (cfg0.win 5).cut (grid0.coords t) ((dats m 0 c).after 5 t) = _
  rw [after0_5]
  unfold outBlk
  rw [View.canon_unit_zero hz3]
  simp only [View.ld_unit_zero (S := S1x1000x512) hz3, View.ld_unit_zero (S := S1x512x512) hz3, View.ld_unit_zero (S := S1x1x512) hz3]
  have ht : t.val < 150 := lt_of_lt_of_eq t.isLt N_0
  have hE : t.val / 50 < 3 := by omega
  have hR : ∀ r : Fin 1000, t.val % 50 * 1000 + r.val < 50000 := fun r => by have := r.isLt; omega
  funext y
  obtain ⟨u, r, cc, rfl⟩ : ∃ (u : Fin 1) (r : Fin 1000) (cc : Fin 512), y = ix3 u r cc := ⟨y 0, y 1, y 2, eq_ix3 y⟩
  show k0_pay1 (F := Ideal) (iblk m c 0 t) (iblk m c 1 t) (iblk m c 2 t) (iblk m c 3 t) (iblk m c 4 t) (ix3 u r cc)
      = Gst (V m c main_v48) (V m c main_v55) (V m c main_v67) (V m c main_v62) (V m c main_v72) (((cfg0.win 5).blk t).view.emb (ix3 u r cc))
  rw [emb_5 t u r cc ⟨t.val / 50, hE⟩ ⟨t.val % 50 * 1000 + r.val, hR r⟩ rfl rfl]
  refine pay_of_blocks (V m c main_v48) (V m c main_v55) (V m c main_v67) (V m c main_v62) (V m c main_v72)
    (iblk m c 0 t) (iblk m c 1 t) (iblk m c 2 t) (iblk m c 3 t) (iblk m c 4 t) (⟨t.val / 50, hE⟩ : Fin 3)
    (fun r => (⟨t.val % 50 * 1000 + r.val, hR r⟩ : Fin 50000)) ?_ ?_ ?_ ?_ ?_ u r cc
  · intro r j
    show V m c main_v48 (((cfg0.win 0).blk t).view.emb (ix3 (0 : Fin 1) r j)) = _
    rw [emb_0 t 0 r j ⟨t.val / 50, hE⟩ ⟨t.val % 50 * 1000 + r.val, hR r⟩ rfl rfl]
  · intro j k
    show V m c main_v55 (((cfg0.win 1).blk t).view.emb (ix3 (0 : Fin 1) j k)) = _
    rw [emb_1 t 0 j k ⟨t.val / 50, hE⟩ j rfl rfl]
  · intro k
    show V m c main_v67 (((cfg0.win 2).blk t).view.emb (ix3 (0 : Fin 1) (0 : Fin 1) k)) = _
    rw [emb_2 t 0 0 k ⟨t.val / 50, hE⟩ 0 rfl rfl]
  · intro j k
    show V m c main_v62 (((cfg0.win 3).blk t).view.emb (ix3 (0 : Fin 1) j k)) = _
    rw [emb_3 t 0 j k ⟨t.val / 50, hE⟩ j rfl rfl]
  · intro k
    show V m c main_v72 (((cfg0.win 4).blk t).view.emb (ix3 (0 : Fin 1) (0 : Fin 1) k)) = _
    rw [emb_4 t 0 0 k ⟨t.val / 50, hE⟩ 0 rfl rfl]

/-- An index of the result array is in point `t`'s block iff each coordinate is in the block's range on its axis. -/
theorem mem_blk (t : Fin cfg0.N) (i : S3x50000x512.Idx) :
    i ∈ ((cfg0.win 5).blk t).view.set ↔ ∀ a : Fin 3, win0_5.index t a * S1x1000x512.size a ≤ (i a).val
      ∧ (i a).val < win0_5.index t a * S1x1000x512.size a + S1x1000x512.size a := by
  show i ∈ ((View.whole main_v73).slice (win0_5.rect t)).set ↔ _
  rw [View.set_slice_whole, Rect.mem_set_unit]
  exact Iff.rfl

/-- The 150 blocks tile the result array: index (e, r, c) lies in the block of edge type e and row tile r / 1000. -/
theorem covered (i : S3x50000x512.Idx) :
    ∃ t : Fin cfg0.N, (cfg0.win 5).flush t = true ∧ i ∈ ((cfg0.win 5).blk t).view.set := by
  have hi0 : (i 0).val < 3 := (i 0).isLt
  have hi1 : (i 1).val < 50000 := (i 1).isLt
  have hi2 : (i 2).val < 512 := (i 2).isLt
  obtain ⟨t, ht⟩ := idx_onto ⟨(i 0).val, hi0⟩ ⟨(i 1).val / 1000, by omega⟩
  have q0 : win0_5.index t (0 : Fin 3) = (i 0).val := congrFun ht 0
  have q1 : win0_5.index t (1 : Fin 3) = (i 1).val / 1000 := congrFun ht 1
  have q2 : win0_5.index t (2 : Fin 3) = 0 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1000 ≤ (i 1).val ∧ (i 1).val < win0_5.index t (1 : Fin 3) * 1000 + 1000; omega
  | ⟨2, _⟩ => show win0_5.index t (2 : Fin 3) * 512 ≤ (i 2).val ∧ (i 2).val < win0_5.index t (2 : Fin 3) * 512 + 512; omega

/-- The result array after the run: the stacked perceptron of the five arrays as the region finds them. -/
theorem final (c : Dev nD) : (dats m 0 c).arrAt 5 cfg0.N
    = Gst (V m c main_v48) (V m c main_v55) (V m c main_v67) (V m c main_v62) (V m c main_v72) :=
  (dats m 0 c).arrAt_eq_of_cover 5 _ (fun t _ => flushed_eq m c t) covered

end Cert.KernelIdeal.Val

end
-- ==== Proof.LibStack3.lean ====
/-
  Three arrays stacked along a new leading axis (jnp.stack of three), read at an index.

  A stack prints as three broadcasts to a leading unit axis followed by a concatenation along that axis. Read at
  (e, i, j) the result is the e-th array at (i, j); for vectors, at (e, j), the e-th vector at j. Also here: the
  reshape that inserts a unit axis in the middle, [3, b] → [3, 1, b]. All generic in the extents.
-/
import Idealize.ShloMosaic.Lib.ValueIdx
import Idealize.ShloMosaic.Lib.Pipeline.Value

noncomputable section

namespace Idealize.ShloMosaic.Stack3

open Idealize.ShloMosaic Idealize.ShloMosaic.ValueIdx

variable {α : Type}

/-- The one of three the leading coordinate names. -/
def pick {β : Type} (e : Fin 3) (x0 x1 x2 : β) : β :=
  match e with
  | ⟨0, _⟩ => x0
  | ⟨1, _⟩ => x1
  | ⟨2, _⟩ => x2

theorem pick_apply {ι β : Type} (e : Fin 3) (x0 x1 x2 : ι → β) (i : ι) : pick e x0 x1 x2 i = pick e (x0 i) (x1 i) (x2 i) := by
  match e with
  | ⟨0, _⟩ => rfl
  | ⟨1, _⟩ => rfl
  | ⟨2, _⟩ => rfl

/-- An `[a, b]` array broadcast to `[1, a, b]` along its own two axes reads, at `(u, i, j)`, the array at `(i, j)`. -/
theorem broadcastInDim_ab_1ab_apply {a b : ℕ} (x : (⟨2, ![a, b]⟩ : Shape).Idx → α)
    (h : (⟨2, ![a, b]⟩ : Shape).BroadcastsInDim ⟨3, ![1, a, b]⟩ (![1, 2] : Fin 2 → Fin 3)) (u : Fin 1) (i : Fin a) (j : Fin b) :
    broadcastInDim ⟨3, ![1, a, b]⟩ ![1, 2] h x (ix3 u i j) = x (ix2 i j) := by
  refine broadcastInDim_apply _ h x (ix3 u i j) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- A `[b]` vector broadcast to `[1, b]` reads, at `(u, j)`, the vector at `j`. -/
theorem broadcastInDim_b_1b_apply {b : ℕ} (x : (⟨1, ![b]⟩ : Shape).Idx → α)
    (h : (⟨1, ![b]⟩ : Shape).BroadcastsInDim ⟨2, ![1, b]⟩ (![1] : Fin 1 → Fin 2)) (u : Fin 1) (j : Fin b) :
    broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- Three `[1, a, b]` pieces concatenated along the leading axis read, at `(e, i, j)`, piece `e` at `(0, i, j)`. -/
theorem concatenate3_1ab_apply {a b : ℕ} (x0 x1 x2 : (⟨3, ![1, a, b]⟩ : Shape).Idx → α)
    (h : Shape.Concatenates [(⟨3, ![1, a, b]⟩ : Shape), ⟨3, ![1, a, b]⟩, ⟨3, ![1, a, b]⟩] ⟨3, ![3, a, b]⟩ 0)
    (e : Fin 3) (i : Fin a) (j : Fin b) :
    concatenate ⟨3, ![3, a, b]⟩ 0 [⟨⟨3, ![1, a, b]⟩, x0⟩, ⟨⟨3, ![1, a, b]⟩, x1⟩, ⟨⟨3, ![1, a, b]⟩, x2⟩] h (ix3 e i j)
      = pick e x0 x1 x2 (ix3 (0 : Fin 1) i j) := by
  have hi : ∀ bb : Fin 3, bb.cast (rfl : (3 : ℕ) = 3) ≠ (0 : Fin 3) →
      ((ix3 (0 : Fin 1) i j : (⟨3, ![1, a, b]⟩ : Shape).Idx) bb).val = ((ix3 e i j : (⟨3, ![3, a, b]⟩ : Shape).Idx) (bb.cast rfl)).val := fun bb hb => by
    match bb with
    | ⟨0, _⟩ => exact absurd rfl hb
    | ⟨1, _⟩ => rfl
    | ⟨2, _⟩ => rfl
  match e with
  | ⟨0, _⟩ => exact concatenate_apply_piece (t := ⟨3, ![3, a, b]⟩) 0 [⟨⟨3, ![1, a, b]⟩, x0⟩, ⟨⟨3, ![1, a, b]⟩, x1⟩, ⟨⟨3, ![1, a, b]⟩, x2⟩] h _ 0 (by simp) _ x0 rfl rfl 0 rfl (ix3 (0 : Fin 1) i j) hi rfl
  | ⟨1, _⟩ => exact concatenate_apply_piece (t := ⟨3, ![3, a, b]⟩) 0 [⟨⟨3, ![1, a, b]⟩, x0⟩, ⟨⟨3, ![1, a, b]⟩, x1⟩, ⟨⟨3, ![1, a, b]⟩, x2⟩] h _ 1 (by simp) _ x1 rfl rfl 1 rfl (ix3 (0 : Fin 1) i j) hi rfl
  | ⟨2, _⟩ => exact concatenate_apply_piece (t := ⟨3, ![3, a, b]⟩) 0 [⟨⟨3, ![1, a, b]⟩, x0⟩, ⟨⟨3, ![1, a, b]⟩, x1⟩, ⟨⟨3, ![1, a, b]⟩, x2⟩] h _ 2 (by simp) _ x2 rfl rfl 2 rfl (ix3 (0 : Fin 1) i j) hi rfl

/-- Three `[1, b]` pieces concatenated along the leading axis read, at `(e, j)`, piece `e` at `(0, j)`. -/
theorem concatenate3_1b_apply {b : ℕ} (x0 x1 x2 : (⟨2, ![1, b]⟩ : Shape).Idx → α)
    (h : Shape.Concatenates [(⟨2, ![1, b]⟩ : Shape), ⟨2, ![1, b]⟩, ⟨2, ![1, b]⟩] ⟨2, ![3, b]⟩ 0)
    (e : Fin 3) (j : Fin b) :
    concatenate ⟨2, ![3, b]⟩ 0 [⟨⟨2, ![1, b]⟩, x0⟩, ⟨⟨2, ![1, b]⟩, x1⟩, ⟨⟨2, ![1, b]⟩, x2⟩] h (ix2 e j)
      = pick e x0 x1 x2 (ix2 (0 : Fin 1) j) := by
  have hi : ∀ bb : Fin 2, bb.cast (rfl : (2 : ℕ) = 2) ≠ (0 : Fin 2) →
      ((ix2 (0 : Fin 1) j : (⟨2, ![1, b]⟩ : Shape).Idx) bb).val = ((ix2 e j : (⟨2, ![3, b]⟩ : Shape).Idx) (bb.cast rfl)).val := fun bb hb => by
    match bb with
    | ⟨0, _⟩ => exact absurd rfl hb
    | ⟨1, _⟩ => rfl
  match e with
  | ⟨0, _⟩ => exact concatenate_apply_piece (t := ⟨2, ![3, b]⟩) 0 [⟨⟨2, ![1, b]⟩, x0⟩, ⟨⟨2, ![1, b]⟩, x1⟩, ⟨⟨2, ![1, b]⟩, x2⟩] h _ 0 (by simp) _ x0 rfl rfl 0 rfl (ix2 (0 : Fin 1) j) hi rfl
  | ⟨1, _⟩ => exact concatenate_apply_piece (t := ⟨2, ![3, b]⟩) 0 [⟨⟨2, ![1, b]⟩, x0⟩, ⟨⟨2, ![1, b]⟩, x1⟩, ⟨⟨2, ![1, b]⟩, x2⟩] h _ 1 (by simp) _ x1 rfl rfl 1 rfl (ix2 (0 : Fin 1) j) hi rfl
  | ⟨2, _⟩ => exact concatenate_apply_piece (t := ⟨2, ![3, b]⟩) 0 [⟨⟨2, ![1, b]⟩, x0⟩, ⟨⟨2, ![1, b]⟩, x1⟩, ⟨⟨2, ![1, b]⟩, x2⟩] h _ 2 (by simp) _ x2 rfl rfl 2 rfl (ix2 (0 : Fin 1) j) hi rfl

/-- Three `[a, b]` arrays stacked: at `(e, i, j)`, array `e` at `(i, j)`. -/
theorem stack3_ab_apply {a b : ℕ} (x0 x1 x2 : (⟨2, ![a, b]⟩ : Shape).Idx → α)
    (hb : (⟨2, ![a, b]⟩ : Shape).BroadcastsInDim ⟨3, ![1, a, b]⟩ (![1, 2] : Fin 2 → Fin 3))
    (h : Shape.Concatenates [(⟨3, ![1, a, b]⟩ : Shape), ⟨3, ![1, a, b]⟩, ⟨3, ![1, a, b]⟩] ⟨3, ![3, a, b]⟩ 0)
    (e : Fin 3) (i : Fin a) (j : Fin b) :
    concatenate ⟨3, ![3, a, b]⟩ 0 [⟨⟨3, ![1, a, b]⟩, broadcastInDim ⟨3, ![1, a, b]⟩ ![1, 2] hb x0⟩,
        ⟨⟨3, ![1, a, b]⟩, broadcastInDim ⟨3, ![1, a, b]⟩ ![1, 2] hb x1⟩, ⟨⟨3, ![1, a, b]⟩, broadcastInDim ⟨3, ![1, a, b]⟩ ![1, 2] hb x2⟩] h (ix3 e i j)
      = pick e x0 x1 x2 (ix2 i j) := by
  rw [concatenate3_1ab_apply]
  match e with
  | ⟨0, _⟩ => exact broadcastInDim_ab_1ab_apply x0 hb 0 i j
  | ⟨1, _⟩ => exact broadcastInDim_ab_1ab_apply x1 hb 0 i j
  | ⟨2, _⟩ => exact broadcastInDim_ab_1ab_apply x2 hb 0 i j

/-- Three `[b]` vectors stacked: at `(e, j)`, vector `e` at `j`. -/
theorem stack3_b_apply {b : ℕ} (x0 x1 x2 : (⟨1, ![b]⟩ : Shape).Idx → α)
    (hb : (⟨1, ![b]⟩ : Shape).BroadcastsInDim ⟨2, ![1, b]⟩ (![1] : Fin 1 → Fin 2))
    (h : Shape.Concatenates [(⟨2, ![1, b]⟩ : Shape), ⟨2, ![1, b]⟩, ⟨2, ![1, b]⟩] ⟨2, ![3, b]⟩ 0)
    (e : Fin 3) (j : Fin b) :
    concatenate ⟨2, ![3, b]⟩ 0 [⟨⟨2, ![1, b]⟩, broadcastInDim ⟨2, ![1, b]⟩ ![1] hb x0⟩,
        ⟨⟨2, ![1, b]⟩, broadcastInDim ⟨2, ![1, b]⟩ ![1] hb x1⟩, ⟨⟨2, ![1, b]⟩, broadcastInDim ⟨2, ![1, b]⟩ ![1] hb x2⟩] h (ix2 e j)
      = pick e x0 x1 x2 (ix1 j) := by
  rw [concatenate3_1b_apply]
  match e with
  | ⟨0, _⟩ => exact broadcastInDim_b_1b_apply x0 hb 0 j
  | ⟨1, _⟩ => exact broadcastInDim_b_1b_apply x1 hb 0 j
  | ⟨2, _⟩ => exact broadcastInDim_b_1b_apply x2 hb 0 j

/-- A `[n, b]` array reshaped to `[n, 1, b]` reads, at `(e, u, j)`, the array at `(e, j)`. -/
theorem shapeCast_nb_n1b_apply {n b : ℕ} (x : (⟨2, ![n, b]⟩ : Shape).Idx → α)
    (h : (⟨2, ![n, b]⟩ : Shape).ShapeCasts ⟨3, ![n, 1, b]⟩) (e : Fin n) (u : Fin 1) (j : Fin b) :
    shapeCast ⟨3, ![n, 1, b]⟩ x h (ix3 e u j) = x (ix2 e j) :=
  shapeCast_apply x h _ _ (by
    have hu : u.val = 0 := by omega
    rw [Shape.rowMajor_val_three, Shape.rowMajor_val_two]
    show e.val * b + j.val = (e.val * 1 + u.val) * b + j.val
    rw [hu, Nat.mul_one, Nat.add_zero])

end Idealize.ShloMosaic.Stack3

end
-- ==== Proof.Spec.lean ====
/-
  The specification both programs meet, on the extended reals.

  One graph-isomorphism layer over two node types a and b and three edge types aa, ba, ab: for an edge type with source
  features x_src, destination features x_dst and edge list ei, the layer's input is h = x_dst + Σ_{edges into a node}
  x_src (a segment sum, which both programs compute by the SAME host gather and scatter-add and which is therefore
  carried opaquely), and its output the two-layer perceptron

      mlp h W₁ b₁ W₂ b₂ (r, c) = Σ_k max(Σ_j h(r, j) · W₁(j, k) + b₁(k), 0) · W₂(k, c) + b₂(c).

  The results are mlp(h_aa) + mlp(h_ba) for node type a and mlp(h_ab) for node type b.
-/
import Idealize.ShloMosaic.PureOps.Ideal
import Idealize.ShloMosaic.Lib.ValueIdx

noncomputable section

namespace Cert.Gin

open Idealize.ShloMosaic Idealize.ShloMosaic.ValueIdx

/-- Node features: 50000 nodes, 512 channels. -/
abbrev SN : Shape := ⟨2, ![50000, 512]⟩
/-- A weight matrix. -/
abbrev SD : Shape := ⟨2, ![512, 512]⟩
/-- A bias vector. -/
abbrev SV : Shape := ⟨1, ![512]⟩

/-- The hidden layer before the rectifier, at row `r` and hidden channel `k`: Σ_j h(r, j) · W₁(j, k) + b₁(k). -/
def hidden (h : SN.Idx → EReal) (w1 : SD.Idx → EReal) (b1 : SV.Idx → EReal) (r : Fin 50000) (k : Fin 512) : EReal :=
  (∑ j : Fin 512, h (ix2 r j) * w1 (ix2 j k)) + b1 (ix1 k)

/-- The two-layer perceptron applied to every row: Σ_k max(hidden(r, k), 0) · W₂(k, c) + b₂(c). The zero is the float
    pattern of +0.0 both programs spell, left as it is. -/
def mlp (h : SN.Idx → EReal) (w1 : SD.Idx → EReal) (b1 : SV.Idx → EReal) (w2 : SD.Idx → EReal) (b2 : SV.Idx → EReal) :
    SN.Idx → EReal :=
  fun i => (∑ k : Fin 512, max (hidden h w1 b1 (i 0) k) (Ideal.ofBits .f32 0x00000000#32) * w2 (ix2 k (i 1))) + b2 (ix1 (i 1))

end Cert.Gin

end
-- ==== Proof.HostKI.lean ====
/-
  The kernel program's two results as the specification, on the extended reals.

  The five arrays the region stages are stacks of three: the rows' slab e is the segment-sum stage of edge type e
  (e = 0, 1, 2 for aa, ba, ab — the very gather and scatter-add the reference computes, so each is stated as the
  reference's own stage), the weight slabs are the weight matrices (narrowed to bf16, the identity here) and the bias
  slabs the bias vectors, in the same order. Slab e of the stacked perceptron is therefore the perceptron of edge type
  e, and the seven operations after the region return slab 0 + slab 1 and slab 2.
-/
import proofs.«169015_j81552839016473_1_alg».proof.Proof.ArrKI
import proofs.«169015_j81552839016473_1_alg».proof.Proof.LibStack3
import proofs.«169015_j81552839016473_1_alg».proof.Proof.Spec
import proofs.«169015_j81552839016473_1_alg».proof.Proof.Gen.ReferenceIdeal.Read
import Idealize.ShloMosaic.Lib.StableHlo.Run
import Idealize.ShloMosaic.Lib.ValueLayout

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-- The segment-sum stage of edge type aa, ba, ab: the reference's own terms of the launch contents. -/
abbrev hAA (c : Dev nD) : Cert.Gin.SN.Idx → EReal := Cert.ReferenceIdeal.Read.val_main_v14 (F := Ideal) (m ((c : Thread nD τ).loc main_arg0)) (m ((c : Thread nD τ).loc main_arg2))
abbrev hBA (c : Dev nD) : Cert.Gin.SN.Idx → EReal := Cert.ReferenceIdeal.Read.val_main_v38 (F := Ideal) (m ((c : Thread nD τ).loc main_arg0)) (m ((c : Thread nD τ).loc main_arg1)) (m ((c : Thread nD τ).loc main_arg4))
abbrev hAB (c : Dev nD) : Cert.Gin.SN.Idx → EReal := Cert.ReferenceIdeal.Read.val_main_v63 (F := Ideal) (m ((c : Thread nD τ).loc main_arg0)) (m ((c : Thread nD τ).loc main_arg1)) (m ((c : Thread nD τ).loc main_arg3))

/-! ## The staged arrays as the region finds them -/

set_option maxHeartbeats 4000000 in
/-- The stacked rows: the three segment-sum stages, each broadcast to a leading unit axis, concatenated. -/
theorem V48_eq (c : Dev nD) : (V m c main_v48 : S3x50000x512.Idx → EReal)
    = concatenate S3x50000x512 0 [⟨S1x50000x512, broadcastInDim S1x50000x512 ![1, 2] bcast_S50000x512_S1x50000x512_1_2 (hAA m c)⟩,
        ⟨S1x50000x512, broadcastInDim S1x50000x512 ![1, 2] bcast_S50000x512_S1x50000x512_1_2 (hBA m c)⟩,
        ⟨S1x50000x512, broadcastInDim S1x50000x512 ![1, 2] bcast_S50000x512_S1x50000x512_1_2 (hAB m c)⟩]
      concatenates_S1x50000x512_S1x50000x512_S1x50000x512_S3x50000x512_d0 := by
  show StableHlo.after hostOps0 (fun b => m (c, b)) (Proc.devRef .tc main_v48) = _
  after_results
  rfl

theorem V55_eq (c : Dev nD) : (V m c main_v55 : S3x512x512.Idx → EReal)
    = concatenate S3x512x512 0 [⟨S1x512x512, broadcastInDim S1x512x512 ![1, 2] bcast_S512x512_S1x512x512_1_2 (truncf .bf16 (m ((c : Thread nD τ).loc main_arg5)) bitsLt_bf16_f32 : FVec Ideal S512x512 .bf16)⟩,
        ⟨S1x512x512, broadcastInDim S1x512x512 ![1, 2] bcast_S512x512_S1x512x512_1_2 (truncf .bf16 (m ((c : Thread nD τ).loc main_arg13)) bitsLt_bf16_f32 : FVec Ideal S512x512 .bf16)⟩,
        ⟨S1x512x512, broadcastInDim S1x512x512 ![1, 2] bcast_S512x512_S1x512x512_1_2 (truncf .bf16 (m ((c : Thread nD τ).loc main_arg9)) bitsLt_bf16_f32 : FVec Ideal S512x512 .bf16)⟩]
      concatenates_S1x512x512_S1x512x512_S1x512x512_S3x512x512_d0 := by
  show StableHlo.after hostOps0 (fun b => m (c, b)) (Proc.devRef .tc main_v55) = _
  after_results
  rfl

theorem V62_eq (c : Dev nD) : (V m c main_v62 : S3x512x512.Idx → EReal)
    = concatenate S3x512x512 0 [⟨S1x512x512, broadcastInDim S1x512x512 ![1, 2] bcast_S512x512_S1x512x512_1_2 (truncf .bf16 (m ((c : Thread nD τ).loc main_arg7)) bitsLt_bf16_f32 : FVec Ideal S512x512 .bf16)⟩,
        ⟨S1x512x512, broadcastInDim S1x512x512 ![1, 2] bcast_S512x512_S1x512x512_1_2 (truncf .bf16 (m ((c : Thread nD τ).loc main_arg15)) bitsLt_bf16_f32 : FVec Ideal S512x512 .bf16)⟩,
        ⟨S1x512x512, broadcastInDim S1x512x512 ![1, 2] bcast_S512x512_S1x512x512_1_2 (truncf .bf16 (m ((c : Thread nD τ).loc main_arg11)) bitsLt_bf16_f32 : FVec Ideal S512x512 .bf16)⟩]
      concatenates_S1x512x512_S1x512x512_S1x512x512_S3x512x512_d0 := by
  show StableHlo.after hostOps0 (fun b => m (c, b)) (Proc.devRef .tc main_v62) = _
  after_results
  rfl

theorem V67_eq (c : Dev nD) : (V m c main_v67 : S3x1x512.Idx → EReal)
    = shapeCast S3x1x512 (concatenate S3x512 0 [⟨S1x512, broadcastInDim S1x512 ![1] bcast_S512_S1x512_1 (m ((c : Thread nD τ).loc main_arg6))⟩,
        ⟨S1x512, broadcastInDim S1x512 ![1] bcast_S512_S1x512_1 (m ((c : Thread nD τ).loc main_arg14))⟩,
        ⟨S1x512, broadcastInDim S1x512 ![1] bcast_S512_S1x512_1 (m ((c : Thread nD τ).loc main_arg10))⟩]
      concatenates_S1x512_S1x512_S1x512_S3x512_d0) shapeCasts_S3x512_S3x1x512 := by
  show StableHlo.after hostOps0 (fun b => m (c, b)) (Proc.devRef .tc main_v67) = _
  after_results
  rfl

theorem V72_eq (c : Dev nD) : (V m c main_v72 : S3x1x512.Idx → EReal)
    = shapeCast S3x1x512 (concatenate S3x512 0 [⟨S1x512, broadcastInDim S1x512 ![1] bcast_S512_S1x512_1 (m ((c : Thread nD τ).loc main_arg8))⟩,
        ⟨S1x512, broadcastInDim S1x512 ![1] bcast_S512_S1x512_1 (m ((c : Thread nD τ).loc main_arg16))⟩,
        ⟨S1x512, broadcastInDim S1x512 ![1] bcast_S512_S1x512_1 (m ((c : Thread nD τ).loc main_arg12))⟩]
      concatenates_S1x512_S1x512_S1x512_S3x512_d0) shapeCasts_S3x512_S3x1x512 := by
  show StableHlo.after hostOps0 (fun b => m (c, b)) (Proc.devRef .tc main_v72) = _
  after_results
  rfl

/-! ## The same, read at an index -/

theorem V48_apply (c : Dev nD) (e : Fin 3) (r : Fin 50000) (j : Fin 512) :
    V m c main_v48 (ix3 e r j) = Stack3.pick e (hAA m c) (hBA m c) (hAB m c) (ix2 r j) := by
  rw [V48_eq]; exact Stack3.stack3_ab_apply _ _ _ _ _ e r j

theorem V55_apply (c : Dev nD) (e : Fin 3) (j k : Fin 512) :
    V m c main_v55 (ix3 e j k) = Stack3.pick e ((m ((c : Thread nD τ).loc main_arg5)) : Cert.Gin.SD.Idx → EReal) (m ((c : Thread nD τ).loc main_arg13)) (m ((c : Thread nD τ).loc main_arg9)) (ix2 j k) := by
  rw [V55_eq]; exact Stack3.stack3_ab_apply _ _ _ _ _ e j k

theorem V62_apply (c : Dev nD) (e : Fin 3) (j k : Fin 512) :
    V m c main_v62 (ix3 e j k) = Stack3.pick e ((m ((c : Thread nD τ).loc main_arg7)) : Cert.Gin.SD.Idx → EReal) (m ((c : Thread nD τ).loc main_arg15)) (m ((c : Thread nD τ).loc main_arg11)) (ix2 j k) := by
  rw [V62_eq]; exact Stack3.stack3_ab_apply _ _ _ _ _ e j k

theorem V67_apply (c : Dev nD) (e : Fin 3) (k : Fin 512) :
    V m c main_v67 (ix3 e (0 : Fin 1) k) = Stack3.pick e ((m ((c : Thread nD τ).loc main_arg6)) : Cert.Gin.SV.Idx → EReal) (m ((c : Thread nD τ).loc main_arg14)) (m ((c : Thread nD τ).loc main_arg10)) (ix1 k) := by
  rw [V67_eq, Stack3.shapeCast_nb_n1b_apply]; exact Stack3.stack3_b_apply _ _ _ _ _ e k

theorem V72_apply (c : Dev nD) (e : Fin 3) (k : Fin 512) :
    V m c main_v72 (ix3 e (0 : Fin 1) k) = Stack3.pick e ((m ((c : Thread nD τ).loc main_arg8)) : Cert.Gin.SV.Idx → EReal) (m ((c : Thread nD τ).loc main_arg16)) (m ((c : Thread nD τ).loc main_arg12)) (ix1 k) := by
  rw [V72_eq, Stack3.shapeCast_nb_n1b_apply]; exact Stack3.stack3_b_apply _ _ _ _ _ e k

/-! ## A slab of the stacked perceptron is a perceptron -/

/-- If slab `e` of each of the five stacks is, index by index, a row array, two weight matrices and two bias vectors,
    slab `e` of the stacked perceptron is their perceptron. -/
theorem Gst_slab (X : S3x50000x512.Idx → EReal) (W1 : S3x512x512.Idx → EReal) (B1 : S3x1x512.Idx → EReal)
    (W2 : S3x512x512.Idx → EReal) (B2 : S3x1x512.Idx → EReal)
    (x : Cert.Gin.SN.Idx → EReal) (w1 : Cert.Gin.SD.Idx → EReal) (b1 : Cert.Gin.SV.Idx → EReal)
    (w2 : Cert.Gin.SD.Idx → EReal) (b2 : Cert.Gin.SV.Idx → EReal) (e : Fin 3)
    (hX : ∀ (r : Fin 50000) (j : Fin 512), X (ix3 e r j) = x (ix2 r j))
    (hW1 : ∀ j k : Fin 512, W1 (ix3 e j k) = w1 (ix2 j k)) (hB1 : ∀ k : Fin 512, B1 (ix3 e (0 : Fin 1) k) = b1 (ix1 k))
    (hW2 : ∀ j k : Fin 512, W2 (ix3 e j k) = w2 (ix2 j k)) (hB2 : ∀ k : Fin 512, B2 (ix3 e (0 : Fin 1) k) = b2 (ix1 k))
    (r : Fin 50000) (cc : Fin 512) :
    Gst X W1 B1 W2 B2 (ix3 e r cc) = Cert.Gin.mlp x w1 b1 w2 b2 (ix2 r cc) := by
  show (∑ k : Fin 512, max ((∑ j : Fin 512, X (ix3 e r j) * W1 (ix3 e j k)) + B1 (ix3 e (0 : Fin 1) k))
      (Ideal.ofBits .f32 0x00000000#32) * W2 (ix3 e k cc)) + B2 (ix3 e (0 : Fin 1) cc) = _
  simp only [hX, hW1, hB1, hW2, hB2]
  rfl

/-- The result array as the region leaves it, slab by slab. -/
abbrev Gres (c : Dev nD) : S3x50000x512.Idx → EReal :=
  Gst (V m c main_v48) (V m c main_v55) (V m c main_v67) (V m c main_v62) (V m c main_v72)

theorem Gres_aa (c : Dev nD) (r : Fin 50000) (cc : Fin 512) :
    Gres m c (ix3 (0 : Fin 3) r cc) = Cert.Gin.mlp (hAA m c) (m ((c : Thread nD τ).loc main_arg5)) (m ((c : Thread nD τ).loc main_arg6)) (m ((c : Thread nD τ).loc main_arg7)) (m ((c : Thread nD τ).loc main_arg8)) (ix2 r cc) :=
  Gst_slab _ _ _ _ _ _ _ _ _ _ (0 : Fin 3) (fun r j => V48_apply m c 0 r j) (fun j k => V55_apply m c 0 j k) (fun k => V67_apply m c 0 k)
    (fun j k => V62_apply m c 0 j k) (fun k => V72_apply m c 0 k) r cc
theorem Gres_ba (c : Dev nD) (r : Fin 50000) (cc : Fin 512) :
    Gres m c (ix3 (1 : Fin 3) r cc) = Cert.Gin.mlp (hBA m c) (m ((c : Thread nD τ).loc main_arg13)) (m ((c : Thread nD τ).loc main_arg14)) (m ((c : Thread nD τ).loc main_arg15)) (m ((c : Thread nD τ).loc main_arg16)) (ix2 r cc) :=
  Gst_slab _ _ _ _ _ _ _ _ _ _ (1 : Fin 3) (fun r j => V48_apply m c 1 r j) (fun j k => V55_apply m c 1 j k) (fun k => V67_apply m c 1 k)
    (fun j k => V62_apply m c 1 j k) (fun k => V72_apply m c 1 k) r cc
theorem Gres_ab (c : Dev nD) (r : Fin 50000) (cc : Fin 512) :
    Gres m c (ix3 (2 : Fin 3) r cc) = Cert.Gin.mlp (hAB m c) (m ((c : Thread nD τ).loc main_arg9)) (m ((c : Thread nD τ).loc main_arg10)) (m ((c : Thread nD τ).loc main_arg11)) (m ((c : Thread nD τ).loc main_arg12)) (ix2 r cc) :=
  Gst_slab _ _ _ _ _ _ _ _ _ _ (2 : Fin 3) (fun r j => V48_apply m c 2 r j) (fun j k => V55_apply m c 2 j k) (fun k => V67_apply m c 2 k)
    (fun j k => V62_apply m c 2 j k) (fun k => V72_apply m c 2 k) r cc

/-! ## The seven operations after the region -/

/-- The result array after the run is what the later operations read. -/
theorem tail_arr (c : Dev nD) :
    Pipeline.withArrays spec0 c (V0 m c) (fun w => (dats m 0 c).arrAt w cfg0.N) (Proc.devRef .tc main_v73) = Gres m c :=
  (Pipeline.withArrays_arr spec0 launch0.win.arr_inj c _ _ 5).trans (final m c)

/-- Node type a: slab 0 plus slab 1. -/
theorem tail_a (c : Dev nD) : (Pipeline.afterTail₀ cfgs (dats m) 0 (V0 m) [hostOps1] c main_v78 : S50000x512.Idx → EReal)
    = addf (shapeCast S50000x512 (extractStridedSlice S1x50000x512 ![0, 0, 0] (Gres m c) slices_S3x50000x512_S1x50000x512_0_0_0 : FVec Ideal S1x50000x512 .f32) shapeCasts_S1x50000x512_S50000x512)
        (shapeCast S50000x512 (extractStridedSlice S1x50000x512 ![1, 0, 0] (Gres m c) slices_S3x50000x512_S1x50000x512_1_0_0 : FVec Ideal S1x50000x512 .f32) shapeCasts_S1x50000x512_S50000x512) := by
  unfold Pipeline.afterTail₀
  show StableHlo.after hostOps1 _ (Proc.devRef .tc main_v78) = _
  after_results
  rw [tail_arr]
  rfl

/-- Node type b: slab 2. -/
theorem tail_b (c : Dev nD) : (Pipeline.afterTail₀ cfgs (dats m) 0 (V0 m) [hostOps1] c main_v80 : S50000x512.Idx → EReal)
    = shapeCast S50000x512 (extractStridedSlice S1x50000x512 ![2, 0, 0] (Gres m c) slices_S3x50000x512_S1x50000x512_2_0_0 : FVec Ideal S1x50000x512 .f32) shapeCasts_S1x50000x512_S50000x512 := by
  unfold Pipeline.afterTail₀
  show StableHlo.after hostOps1 _ (Proc.devRef .tc main_v80) = _
  after_results
  rw [tail_arr]
  rfl

/-- Slab `e` cut out of the stacked result and its unit axis dropped, read at row `r` and column `cc`. -/
theorem slab_apply (G : S3x50000x512.Idx → EReal) (e : Fin 3) (off : Fin 3 → ℕ) (hoff : off = ![e.val, 0, 0])
    (hs : S3x50000x512.Slices off S1x50000x512) (r : Fin 50000) (cc : Fin 512) :
    shapeCast S50000x512 (extractStridedSlice S1x50000x512 off G hs) shapeCasts_S1x50000x512_S50000x512 (ix2 r cc)
      = G (ix3 e r cc) := by
  subst hoff
  rw [shapeCast_1ab_ab_apply]
  refine extractStridedSlice_apply _ G hs _ (ix3 e r cc) fun a => ?_
  match a with
  | ⟨0, _⟩ => show e.val = e.val + 0; omega
  | ⟨1, _⟩ => show r.val = 0 + r.val; omega
  | ⟨2, _⟩ => show cc.val = 0 + cc.val; omega

/-- Node type a's result is the sum of the aa and ba perceptrons. -/
theorem out_a (c : Dev nD) : (Pipeline.afterTail₀ cfgs (dats m) 0 (V0 m) [hostOps1] c main_v78 : Cert.Gin.SN.Idx → EReal)
    = fun i => Cert.Gin.mlp (hAA m c) (m ((c : Thread nD τ).loc main_arg5)) (m ((c : Thread nD τ).loc main_arg6)) (m ((c : Thread nD τ).loc main_arg7)) (m ((c : Thread nD τ).loc main_arg8)) i
        + Cert.Gin.mlp (hBA m c) (m ((c : Thread nD τ).loc main_arg13)) (m ((c : Thread nD τ).loc main_arg14)) (m ((c : Thread nD τ).loc main_arg15)) (m ((c : Thread nD τ).loc main_arg16)) i := by
  funext i
  obtain ⟨r, cc, rfl⟩ : ∃ (r : Fin 50000) (cc : Fin 512), i = ix2 r cc := ⟨i 0, i 1, eq_ix2 i⟩
  rw [tail_a, addf_apply, slab_apply (Gres m c) 0 ![0, 0, 0] rfl, slab_apply (Gres m c) 1 ![1, 0, 0] rfl, Gres_aa, Gres_ba]

/-- Node type b's result is the ab perceptron. -/
theorem out_b (c : Dev nD) : (Pipeline.afterTail₀ cfgs (dats m) 0 (V0 m) [hostOps1] c main_v80 : Cert.Gin.SN.Idx → EReal)
    = Cert.Gin.mlp (hAB m c) (m ((c : Thread nD τ).loc main_arg9)) (m ((c : Thread nD τ).loc main_arg10)) (m ((c : Thread nD τ).loc main_arg11)) (m ((c : Thread nD τ).loc main_arg12)) := by
  funext i
  obtain ⟨r, cc, rfl⟩ : ∃ (r : Fin 50000) (cc : Fin 512), i = ix2 r cc := ⟨i 0, i 1, eq_ix2 i⟩
  rw [tail_b, slab_apply (Gres m c) 2 ![2, 0, 0] rfl, Gres_ab]

/-! ## The run, read -/

/-- Every weakly fair execution of the idealized kernel program terminates with node type a's result at the sum of the
    aa and ba perceptrons, node type b's at the ab perceptron, and the seventeen arguments as launched. -/
theorem run : θ_run defs (onTc (τ := τ) (main (F := Ideal))) ⟨m, fun _ => 0, ρ⟩ (fun r => ∀ c : Dev nD,
      r.2.mem ((c.tc : Thread nD τ).loc main_v78) = (fun i => Cert.Gin.mlp (hAA m c) (m ((c : Thread nD τ).loc main_arg5)) (m ((c : Thread nD τ).loc main_arg6)) (m ((c : Thread nD τ).loc main_arg7)) (m ((c : Thread nD τ).loc main_arg8)) i
        + Cert.Gin.mlp (hBA m c) (m ((c : Thread nD τ).loc main_arg13)) (m ((c : Thread nD τ).loc main_arg14)) (m ((c : Thread nD τ).loc main_arg15)) (m ((c : Thread nD τ).loc main_arg16)) i)
      ∧ r.2.mem ((c.tc : Thread nD τ).loc main_v80) = Cert.Gin.mlp (hAB m c) (m ((c : Thread nD τ).loc main_arg9)) (m ((c : Thread nD τ).loc main_arg10)) (m ((c : Thread nD τ).loc main_arg11)) (m ((c : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).2 main_v78 (Pipeline.mem_restRefs_of main_v78 (by decide) (by decide))).trans (out_a m c),
    ((h c).2 main_v80 (Pipeline.mem_restRefs_of main_v80 (by decide) (by decide))).trans (out_b m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c),
    ((h c).2 main_arg10 (Pipeline.mem_restRefs_of main_arg10 (by decide) (by decide))).trans (W_main_arg10 m (dats m) c),
    ((h c).2 main_arg11 (Pipeline.mem_restRefs_of main_arg11 (by decide) (by decide))).trans (W_main_arg11 m (dats m) c),
    ((h c).2 main_arg12 (Pipeline.mem_restRefs_of main_arg12 (by decide) (by decide))).trans (W_main_arg12 m (dats m) c),
    ((h c).2 main_arg13 (Pipeline.mem_restRefs_of main_arg13 (by decide) (by decide))).trans (W_main_arg13 m (dats m) c),
    ((h c).2 main_arg14 (Pipeline.mem_restRefs_of main_arg14 (by decide) (by decide))).trans (W_main_arg14 m (dats m) c),
    ((h c).2 main_arg15 (Pipeline.mem_restRefs_of main_arg15 (by decide) (by decide))).trans (W_main_arg15 m (dats m) c),
    ((h c).2 main_arg16 (Pipeline.mem_restRefs_of main_arg16 (by decide) (by decide))).trans (W_main_arg16 m (dats m) c)⟩)
    (run_main m ρ)

end Cert.KernelIdeal.Val

end
-- ==== Proof.RefSide.lean ====
/-
  The reference computes the specification.

  Each of the reference's three convolutions is its segment-sum stage h = x_dst + Σ x_src followed by the two-layer
  perceptron; read at an index, one operation at a time, the perceptron is `Cert.Gin.mlp` of the stage. The stage itself
  (a gather and a scatter-add whose addresses depend on the edge list's values) is kept as the reference's own term.
-/
import proofs.«169015_j81552839016473_1_alg».proof.Proof.Gen.ReferenceIdeal.Read
import proofs.«169015_j81552839016473_1_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-- Edge type aa: the reference's perceptron over its segment-sum stage, read at an index — the two contractions as
    sums over the contracted axis, the biases through their two broadcasts, the rectifier against the broadcast zero —
    is `mlp` of that stage. -/
theorem gin_aa (x0 : (⟨S50000x512, .f32⟩ : BufTy).Contents (Elt Ideal)) (x2 : (⟨S2x150000, .i32⟩ : BufTy).Contents (Elt Ideal)) (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) :
    val_main_v23 (F := Ideal) x0 x2 x5 x6 x7 x8 = Cert.Gin.mlp (val_main_v14 (F := Ideal) x0 x2) x5 x6 x7 x8 := by
  funext i
  have e1 : ∀ k k' : Fin 512, lidx_main_v15 (lidx_main_v20 i k) k' = ix2 (i 0) k' := fun k k' => funext fun a => by
    match a with | ⟨0, _⟩ => rfl | ⟨1, _⟩ => rfl
  have e2 : ∀ k k' : Fin 512, ridx_main_v15 (lidx_main_v20 i k) k' = ix2 k' k := fun k k' => funext fun a => by
    match a with | ⟨0, _⟩ => rfl | ⟨1, _⟩ => rfl
  have e3 : ∀ k : Fin 512, idx_main_v16 (idx_main_v17 (lidx_main_v20 i k)) = ix1 k := fun k => funext fun a => by
    match a with | ⟨0, _⟩ => rfl
  have e4 : ∀ k : Fin 512, ridx_main_v20 i k = ix2 k (i 1) := fun k => funext fun a => by
    match a with | ⟨0, _⟩ => rfl | ⟨1, _⟩ => rfl
  have e5 : idx_main_v21 (idx_main_v22 i) = ix1 (i 1) := funext fun a => by
    match a with | ⟨0, _⟩ => rfl
  rw [val_main_v23_apply, val_main_v20_apply, val_main_v22_apply, val_main_v21_apply]
  simp only [val_main_v19_apply, val_main_v18_apply, val_main_v15_apply, val_main_v17_apply, val_main_v16_apply,
    val_main_call0_v0_apply, val_main_call0_cst_apply, Ideal.addf_def, Ideal.maximumf_def, Ideal.ofBits_def, e1, e2, e3, e4, e5]
  rfl

/-- Edge type ba: the reference's perceptron over its segment-sum stage, read at an index — the two contractions as
    sums over the contracted axis, the biases through their two broadcasts, the rectifier against the broadcast zero —
    is `mlp` of that stage. -/
theorem gin_ba (x0 x1 : (⟨S50000x512, .f32⟩ : BufTy).Contents (Elt Ideal)) (x4 : (⟨S2x150000, .i32⟩ : BufTy).Contents (Elt Ideal)) (x13 : (⟨S512x512, .f32⟩ : BufTy).Contents (Elt Ideal)) (x14 : (⟨S512, .f32⟩ : BufTy).Contents (Elt Ideal)) (x15 : (⟨S512x512, .f32⟩ : BufTy).Contents (Elt Ideal)) (x16 : (⟨S512, .f32⟩ : BufTy).Contents (Elt Ideal)) :
    val_main_v47 (F := Ideal) x0 x1 x4 x13 x14 x15 x16 = Cert.Gin.mlp (val_main_v38 (F := Ideal) x0 x1 x4) x13 x14 x15 x16 := by
  funext i
  have e1 : ∀ k k' : Fin 512, lidx_main_v39 (lidx_main_v44 i k) k' = ix2 (i 0) k' := fun k k' => funext fun a => by
    match a with | ⟨0, _⟩ => rfl | ⟨1, _⟩ => rfl
  have e2 : ∀ k k' : Fin 512, ridx_main_v39 (lidx_main_v44 i k) k' = ix2 k' k := fun k k' => funext fun a => by
    match a with | ⟨0, _⟩ => rfl | ⟨1, _⟩ => rfl
  have e3 : ∀ k : Fin 512, idx_main_v40 (idx_main_v41 (lidx_main_v44 i k)) = ix1 k := fun k => funext fun a => by
    match a with | ⟨0, _⟩ => rfl
  have e4 : ∀ k : Fin 512, ridx_main_v44 i k = ix2 k (i 1) := fun k => funext fun a => by
    match a with | ⟨0, _⟩ => rfl | ⟨1, _⟩ => rfl
  have e5 : idx_main_v45 (idx_main_v46 i) = ix1 (i 1) := funext fun a => by
    match a with | ⟨0, _⟩ => rfl
  rw [val_main_v47_apply, val_main_v44_apply, val_main_v46_apply, val_main_v45_apply]
  simp only [val_main_v43_apply, val_main_v42_apply, val_main_v39_apply, val_main_v41_apply, val_main_v40_apply,
    val_main_call1_v0_apply, val_main_call1_cst_apply, Ideal.addf_def, Ideal.maximumf_def, Ideal.ofBits_def, e1, e2, e3, e4, e5]
  rfl

/-- Edge type ab: the reference's perceptron over its segment-sum stage, read at an index — the two contractions as
    sums over the contracted axis, the biases through their two broadcasts, the rectifier against the broadcast zero —
    is `mlp` of that stage. -/
theorem gin_ab (x0 x1 : (⟨S50000x512, .f32⟩ : BufTy).Contents (Elt Ideal)) (x3 : (⟨S2x150000, .i32⟩ : BufTy).Contents (Elt Ideal)) (x9 : (⟨S512x512, .f32⟩ : BufTy).Contents (Elt Ideal)) (x10 : (⟨S512, .f32⟩ : BufTy).Contents (Elt Ideal)) (x11 : (⟨S512x512, .f32⟩ : BufTy).Contents (Elt Ideal)) (x12 : (⟨S512, .f32⟩ : BufTy).Contents (Elt Ideal)) :
    val_main_v72 (F := Ideal) x0 x1 x3 x9 x10 x11 x12 = Cert.Gin.mlp (val_main_v63 (F := Ideal) x0 x1 x3) x9 x10 x11 x12 := by
  funext i
  have e1 : ∀ k k' : Fin 512, lidx_main_v64 (lidx_main_v69 i k) k' = ix2 (i 0) k' := fun k k' => funext fun a => by
    match a with | ⟨0, _⟩ => rfl | ⟨1, _⟩ => rfl
  have e2 : ∀ k k' : Fin 512, ridx_main_v64 (lidx_main_v69 i k) k' = ix2 k' k := fun k k' => funext fun a => by
    match a with | ⟨0, _⟩ => rfl | ⟨1, _⟩ => rfl
  have e3 : ∀ k : Fin 512, idx_main_v65 (idx_main_v66 (lidx_main_v69 i k)) = ix1 k := fun k => funext fun a => by
    match a with | ⟨0, _⟩ => rfl
  have e4 : ∀ k : Fin 512, ridx_main_v69 i k = ix2 k (i 1) := fun k => funext fun a => by
    match a with | ⟨0, _⟩ => rfl | ⟨1, _⟩ => rfl
  have e5 : idx_main_v70 (idx_main_v71 i) = ix1 (i 1) := funext fun a => by
    match a with | ⟨0, _⟩ => rfl
  rw [val_main_v72_apply, val_main_v69_apply, val_main_v71_apply, val_main_v70_apply]
  simp only [val_main_v68_apply, val_main_v67_apply, val_main_v64_apply, val_main_v66_apply, val_main_v65_apply,
    val_main_call2_v0_apply, val_main_call2_cst_apply, Ideal.addf_def, Ideal.maximumf_def, Ideal.ofBits_def, e1, e2, e3, e4, e5]
  rfl

/-- Node type a: the sum of the aa and ba convolutions. -/
theorem out_a (x0 x1 : (⟨S50000x512, .f32⟩ : BufTy).Contents (Elt Ideal)) (x2 x4 : (⟨S2x150000, .i32⟩ : BufTy).Contents (Elt Ideal)) (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) (x13 : (⟨S512x512, .f32⟩ : BufTy).Contents (Elt Ideal)) (x14 : (⟨S512, .f32⟩ : BufTy).Contents (Elt Ideal)) (x15 : (⟨S512x512, .f32⟩ : BufTy).Contents (Elt Ideal)) (x16 : (⟨S512, .f32⟩ : BufTy).Contents (Elt Ideal)) :
    val_main_v48 (F := Ideal) x0 x1 x2 x4 x5 x6 x7 x8 x13 x14 x15 x16
      = fun i => Cert.Gin.mlp (val_main_v14 (F := Ideal) x0 x2) x5 x6 x7 x8 i
          + Cert.Gin.mlp (val_main_v38 (F := Ideal) x0 x1 x4) x13 x14 x15 x16 i := by
  funext i
  rw [val_main_v48_apply, gin_aa, gin_ba]
  rfl

end Cert.ReferenceIdeal.RefValue

end
-- ==== Proof.lean ====
/-
  One heterogeneous graph-isomorphism layer: the kernel program against the plain reference, on the extended reals.

  Both programs form, for each of the three edge types, the segment sum h = x_dst + Σ_{edges into a node} x_src by the
  same host gather and scatter-add, and apply the two-layer perceptron max(h · W₁ + b₁, 0) · W₂ + b₂; node type a's result
  is the sum of the aa and ba perceptrons, node type b's the ab one. The reference applies the perceptron to each whole
  50000 × 512 array by two host contractions. The kernel program stacks the three inputs, the six weight matrices
  (narrowed to bf16: the identity on the extended reals) and the six bias vectors along a new leading axis, runs ONE
  pipelined region over the grid 3 × 50 — each point one edge type and one tile of 1000 rows, two matrix products into
  zero accumulators — and cuts the stacked result apart again. A product into a zero accumulator and a host contraction
  are the same sum over the contracted axis, and a tile's rows depend on no other tile, so slab e of the region's result
  is the perceptron of edge type e: both programs compute `Cert.Gin.mlp` of the same segment-sum stages. Only
  commutativity-free rewriting of sums is used: no law here needs the inputs finite, and the precondition is never opened.

  The frames: the two kernel programs run their region at every grid point on the plain region invariant
  (Proof/FrameKI.lean, and the same text in the word-level program's namespace); the reference is straight-line host code.
-/
import proofs.«169015_j81552839016473_1_alg».proof.Defs
import proofs.«169015_j81552839016473_1_alg».proof.Proof.Gen.Kernel
import proofs.«169015_j81552839016473_1_alg».proof.Proof.Gen.KernelIdeal
import proofs.«169015_j81552839016473_1_alg».proof.Proof.Gen.ReferenceIdeal
import proofs.«169015_j81552839016473_1_alg».proof.Proof.Gen.ReferenceIdeal.Run
import proofs.«169015_j81552839016473_1_alg».proof.Proof.Gen.ReferenceIdeal.Read
import proofs.«169015_j81552839016473_1_alg».proof.Proof.Gen.Pre_finite_inputs
import proofs.«169015_j81552839016473_1_alg».proof.Proof.FrameK
import proofs.«169015_j81552839016473_1_alg».proof.Proof.FrameKI
import proofs.«169015_j81552839016473_1_alg».proof.Proof.HostKI
import proofs.«169015_j81552839016473_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Frm.frame m ρ
/-- So does the idealized one. -/
theorem frame_ki : Cert.frame_KernelIdeal := fun m ρ _ => Cert.KernelIdeal.Frm.frame m ρ
/-- The reference is eighty-eight host operations in a line: its run, with the two results dropped. -/
theorem frame_r : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with node type a's result at mlp(h_aa) + mlp(h_ba) and
    node type b's at mlp(h_ab), the segment-sum stages h being one term of the arguments on both sides. -/
theorem algebraic : Cert.algebraic_KernelIdeal_ReferenceIdeal := by
  intro m ρ m' ρ' _ hagree
  refine ⟨_, _, Cert.KernelIdeal.Val.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14, h15, h16⟩ := hagree c
    rw [Cert.ReferenceIdeal.Read.val_main_v48_eq, Cert.ReferenceIdeal.RefValue.out_a, h0, h1, h2, h4, h5, h6, h7, h8, h13, h14, h15, h16]
  · obtain ⟨h0, h1, h2, h3, h4, h5, h6, h7, h8, h9, h10, h11, h12, h13, h14, h15, h16⟩ := hagree c
    rw [Cert.ReferenceIdeal.Read.val_main_v72_eq, Cert.ReferenceIdeal.RefValue.gin_ab, h0, h1, h3, h9, h10, h11, h12]

theorem claim : Cert.Claim := ⟨Cert.Kernel.Gen.facts, Cert.KernelIdeal.Gen.facts, Cert.ReferenceIdeal.Gen.facts, Cert.Pre_finite_inputs.Gen.facts,
  frame_k, frame_ki, frame_r, trivial, algebraic⟩

end Cert.Proof

end
